-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x8 : Shape := ⟨2, ![4194304, 8]⟩
abbrev S8x8 : Shape := ⟨2, ![8, 8]⟩
abbrev S8 : Shape := ⟨1, ![8]⟩
abbrev S5x8 : Shape := ⟨2, ![5, 8]⟩
abbrev S5 : Shape := ⟨1, ![5]⟩
abbrev S3x5 : Shape := ⟨2, ![3, 5]⟩
abbrev S3 : Shape := ⟨1, ![3]⟩
abbrev S1x3 : Shape := ⟨2, ![1, 3]⟩
abbrev S1 : Shape := ⟨1, ![1]⟩
abbrev S_ : Shape := ⟨0, ![]⟩

class Facts : Prop where
  bcast_S_S4194304x8 : S_.BroadcastsInDim S4194304x8 (![] : Fin 0 → Fin S4194304x8.rank)
  reducesTo_S4194304x8_S_d0_1 : S4194304x8.ReducesTo [0, 1] S_
  h_S_ : 0 < S_.numel
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_
  bcast_S_S5x8 : S_.BroadcastsInDim S5x8 (![] : Fin 0 → Fin S5x8.rank)
  reducesTo_S5x8_S_d0_1 : S5x8.ReducesTo [0, 1] S_
  bcast_S_S5 : S_.BroadcastsInDim S5 (![] : Fin 0 → Fin S5.rank)
  reducesTo_S5_S_d0 : S5.ReducesTo [0] S_
  bcast_S_S3x5 : S_.BroadcastsInDim S3x5 (![] : Fin 0 → Fin S3x5.rank)
  reducesTo_S3x5_S_d0_1 : S3x5.ReducesTo [0, 1] S_
  bcast_S_S3 : S_.BroadcastsInDim S3 (![] : Fin 0 → Fin S3.rank)
  reducesTo_S3_S_d0 : S3.ReducesTo [0] S_
  bcast_S_S1x3 : S_.BroadcastsInDim S1x3 (![] : Fin 0 → Fin S1x3.rank)
  reducesTo_S1x3_S_d0_1 : S1x3.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  main_v123

def fn_part6 {F : FTy → Type} [FloatOps F] (main_arg21 : FVec F S3x5 .f32) (main_arg22 : FVec F S3 .f32) (main_arg23 : FVec F S1x3 .f32) (main_arg24 : FVec F S1 .f32) (main_v98 : IVec S_ 1) (main_v101 : IVec S5 1) (main_c_39 : IVec S_ 1) : IVec S_ 1 :=
  let main_v102 : IVec S_ 1 := (fun x v => Host.reduce IntOp.andi x v reducesTo_S5_S_d0 h_S_) main_v101 main_c_39
  let main_v103 : IVec S_ 1 := andi main_v98 main_v102
  let main_v104 : FVec F S3x5 .f32 := Host.absf main_arg21
  let main_cst_40 : FVec F S_ .f32 := constant S_ .f32 0x7F800000#32
  let main_v105 : FVec F S3x5 .f32 := broadcastInDim S3x5 ![] bcast_S_S3x5 main_cst_40
  let main_v106 : IVec S3x5 1 := cmpf .olt main_v104 main_v105
  let main_c_41 : IVec S_ 1 := constantI S_ 1 1#1
  let main_v107 : IVec S_ 1 := (fun x v => Host.reduce IntOp.andi x v reducesTo_S3x5_S_d0_1 h_S_) main_v106 main_c_41
  let main_v108 : IVec S_ 1 := andi main_v103 main_v107
  let main_v109 : FVec F S3 .f32 := Host.absf main_arg22
  let main_cst_42 : FVec F S_ .f32 := constant S_ .f32 0x7F800000#32
  let main_v110 : FVec F S3 .f32 := broadcastInDim S3 ![] bcast_S_S3 main_cst_42
  let main_v111 : IVec S3 1 := cmpf .olt main_v109 main_v110
  let main_c_43 : IVec S_ 1 := constantI S_ 1 1#1
  let main_v112 : IVec S_ 1 := (fun x v => Host.reduce IntOp.andi x v reducesTo_S3_S_d0 h_S_) main_v111 main_c_43
  let main_v113 : IVec S_ 1 := andi main_v108 main_v112
  let main_v114 : FVec F S1x3 .f32 := Host.absf main_arg23
  let main_cst_44 : FVec F S_ .f32 := constant S_ .f32 0x7F800000#32
  let main_v115 : FVec F S1x3 .f32 := broadcastInDim S1x3 ![] bcast_S_S1x3 main_cst_44
  let main_v116 : IVec S1x3 1 := cmpf .olt main_v114 main_v115
  let main_c_45 : IVec S_ 1 := constantI S_ 1 1#1
  let main_v117 : IVec S_ 1 := (fun x v => Host.reduce IntOp.andi x v reducesTo_S1x3_S_d0_1 h_S_) main_v116 main_c_45
  let main_v118 : IVec S_ 1 := andi main_v113 main_v117
  let main_v119 : FVec F S1 .f32 := Host.absf main_arg24
  fn_part7 (F := F) main_v118 main_v119

def fn_part5 {F : FTy → Type} [FloatOps F] (main_arg18 : FVec F S8 .f32) (main_arg19 : FVec F S5x8 .f32) (main_arg20 : FVec F S5 .f32) (main_arg21 : FVec F S3x5 .f32) (main_arg22 : FVec F S3 .f32) (main_arg23 : FVec F S1x3 .f32) (main_arg24 : FVec F S1 .f32) (main_v83 : IVec S_ 1) (main_v84 : FVec F S8x8 .f32) (main_cst_32 : FVec F S_ .f32) : IVec S_ 1 :=
  let main_v85 : FVec F S8x8 .f32 := broadcastInDim S8x8 ![] bcast_S_S8x8 main_cst_32
  let main_v86 : IVec S8x8 1 := cmpf .olt main_v84 main_v85
  let main_c_33 : IVec S_ 1 := constantI S_ 1 1#1
  let main_v87 : IVec S_ 1 := (fun x v => Host.reduce IntOp.andi x v reducesTo_S8x8_S_d0_1 h_S_) main_v86 main_c_33
  let main_v88 : IVec S_ 1 := andi main_v83 main_v87
  let main_v89 : FVec F S8 .f32 := Host.absf main_arg18
  let main_cst_34 : FVec F S_ .f32 := constant S_ .f32 0x7F800000#32
  let main_v90 : FVec F S8 .f32 := broadcastInDim S8 ![] bcast_S_S8 main_cst_34
  let main_v91 : IVec S8 1 := cmpf .olt main_v89 main_v90
  let main_c_35 : IVec S_ 1 := constantI S_ 1 1#1
  let main_v92 : IVec S_ 1 := (fun x v => Host.reduce IntOp.andi x v reducesTo_S8_S_d0 h_S_) main_v91 main_c_35
  let main_v93 : IVec S_ 1 := andi main_v88 main_v92
  let main_v94 : FVec F S5x8 .f32 := Host.absf main_arg19
  let main_cst_36 : FVec F S_ .f32 := constant S_ .f32 0x7F800000#32
  let main_v95 : FVec F S5x8 .f32 := broadcastInDim S5x8 ![] bcast_S_S5x8 main_cst_36
  let main_v96 : IVec S5x8 1 := cmpf .olt main_v94 main_v95
  let main_c_37 : IVec S_ 1 := constantI S_ 1 1#1
  let main_v97 : IVec S_ 1 := (fun x v => Host.reduce IntOp.andi x v reducesTo_S5x8_S_d0_1 h_S_) main_v96 main_c_37
  let main_v98 : IVec S_ 1 := andi main_v93 main_v97
  let main_v99 : FVec F S5 .f32 := Host.absf main_arg20
  let main_cst_38 : FVec F S_ .f32 := constant S_ .f32 0x7F800000#32
  let main_v100 : FVec F S5 .f32 := broadcastInDim S5 ![] bcast_S_S5 main_cst_38
  let main_v101 : IVec S5 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S8 .f32) (main_arg15 : FVec F S8x8 .f32) (main_arg16 : FVec F S8 .f32) (main_arg17 : FVec F S8x8 .f32) (main_arg18 : FVec F S8 .f32) (main_arg19 : FVec F S5x8 .f32) (main_arg20 : FVec F S5 .f32) (main_arg21 : FVec F S3x5 .f32) (main_arg22 : FVec F S3 .f32) (main_arg23 : FVec F S1x3 .f32) (main_arg24 : FVec F S1 .f32) (main_v63 : IVec S_ 1) (main_v67 : IVec S_ 1) : IVec S_ 1 :=
  let main_v68 : IVec S_ 1 := andi main_v63 main_v67
  let main_v69 : FVec F S8 .f32 := Host.absf main_arg14
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  let main_v74 : FVec F S8x8 .f32 := Host.absf main_arg15
  let main_cst_28 : FVec F S_ .f32 := constant S_ .f32 0x7F800000#32
  let main_v75 : FVec F S8x8 .f32 := broadcastInDim S8x8 ![] bcast_S_S8x8 main_cst_28
  let main_v76 : IVec S8x8 1 := cmpf .olt main_v74 main_v75
  let main_c_29 : IVec S_ 1 := constantI S_ 1 1#1
  let main_v77 : IVec S_ 1 := (fun x v => Host.reduce IntOp.andi x v reducesTo_S8x8_S_d0_1 h_S_) main_v76 main_c_29
  let main_v78 : IVec S_ 1 := andi main_v73 main_v77
  let main_v79 : FVec F S8 .f32 := Host.absf main_arg16
  let main_cst_30 : FVec F S_ .f32 := constant S_ .f32 0x7F800000#32
  let main_v80 : FVec F S8 .f32 := broadcastInDim S8 ![] bcast_S_S8 main_cst_30
  let main_v81 : IVec S8 1 := cmpf .olt main_v79 main_v80
  let main_c_31 : IVec S_ 1 := constantI S_ 1 1#1
  let main_v82 : IVec S_ 1 := (fun x v => Host.reduce IntOp.andi x v reducesTo_S8_S_d0 h_S_) main_v81 main_c_31
  let main_v83 : IVec S_ 1 := andi main_v78 main_v82
  let main_v84 : FVec F S8x8 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S8x8 .f32) (main_arg12 : FVec F S8 .f32) (main_arg13 : FVec F S8x8 .f32) (main_arg14 : FVec F S8 .f32) (main_arg15 : FVec F S8x8 .f32) (main_arg16 : FVec F S8 .f32) (main_arg17 : FVec F S8x8 .f32) (main_arg18 : FVec F S8 .f32) (main_arg19 : FVec F S5x8 .f32) (main_arg20 : FVec F S5 .f32) (main_arg21 : FVec F S3x5 .f32) (main_arg22 : FVec F S3 .f32) (main_arg23 : FVec F S1x3 .f32) (main_arg24 : FVec F S1 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8x8 .f32 := Host.absf main_arg11
  let main_cst_20 : FVec F S_ .f32 := constant S_ .f32 0x7F800000#32
  let main_v55 : FVec F S8x8 .f32 := broadcastInDim S8x8 ![] bcast_S_S8x8 main_cst_20
  let main_v56 : IVec S8x8 1 := cmpf .olt main_v54 main_v55
  let main_c_21 : IVec S_ 1 := constantI S_ 1 1#1
  let main_v57 : IVec S_ 1 := (fun x v => Host.reduce IntOp.andi x v reducesTo_S8x8_S_d0_1 h_S_) main_v56 main_c_21
  let main_v58 : IVec S_ 1 := andi main_v53 main_v57
  let main_v59 : FVec F S8 .f32 := Host.absf main_arg12
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S8x8 .f32 := Host.absf main_arg13
  let main_cst_24 : FVec F S_ .f32 := constant S_ .f32 0x7F800000#32
  let main_v65 : FVec F S8x8 .f32 := broadcastInDim S8x8 ![] bcast_S_S8x8 main_cst_24
  let main_v66 : IVec S8x8 1 := cmpf .olt main_v64 main_v65
  let main_c_25 : IVec S_ 1 := constantI S_ 1 1#1
  let main_v67 : IVec S_ 1 := (fun x v => Host.reduce IntOp.andi x v reducesTo_S8x8_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S8x8 .f32) (main_arg8 : FVec F S8 .f32) (main_arg9 : FVec F S8x8 .f32) (main_arg10 : FVec F S8 .f32) (main_arg11 : FVec F S8x8 .f32) (main_arg12 : FVec F S8 .f32) (main_arg13 : FVec F S8x8 .f32) (main_arg14 : FVec F S8 .f32) (main_arg15 : FVec F S8x8 .f32) (main_arg16 : FVec F S8 .f32) (main_arg17 : FVec F S8x8 .f32) (main_arg18 : FVec F S8 .f32) (main_arg19 : FVec F S5x8 .f32) (main_arg20 : FVec F S5 .f32) (main_arg21 : FVec F S3x5 .f32) (main_arg22 : FVec F S3 .f32) (main_arg23 : FVec F S1x3 .f32) (main_arg24 : FVec F S1 .f32) (main_v33 : IVec S_ 1) : IVec S_ 1 :=
  let main_v34 : FVec F S8x8 .f32 := Host.absf main_arg7
  let main_cst_12 : FVec F S_ .f32 := constant S_ .f32 0x7F800000#32
  let main_v35 : FVec F S8x8 .f32 := broadcastInDim S8x8 ![] bcast_S_S8x8 main_cst_12
  let main_v36 : IVec S8x8 1 := cmpf .olt main_v34 main_v35
  let main_c_13 : IVec S_ 1 := constantI S_ 1 1#1
  let main_v37 : IVec S_ 1 := (fun x v => Host.reduce IntOp.andi x v reducesTo_S8x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x8 .f32 := Host.absf main_arg9
  let main_cst_16 : FVec F S_ .f32 := constant S_ .f32 0x7F800000#32
  let main_v45 : FVec F S8x8 .f32 := broadcastInDim S8x8 ![] bcast_S_S8x8 main_cst_16
  let main_v46 : IVec S8x8 1 := cmpf .olt main_v44 main_v45
  let main_c_17 : IVec S_ 1 := constantI S_ 1 1#1
  let main_v47 : IVec S_ 1 := (fun x v => Host.reduce IntOp.andi x v reducesTo_S8x8_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S8 .f32) (main_arg5 : FVec F S8x8 .f32) (main_arg6 : FVec F S8 .f32) (main_arg7 : FVec F S8x8 .f32) (main_arg8 : FVec F S8 .f32) (main_arg9 : FVec F S8x8 .f32) (main_arg10 : FVec F S8 .f32) (main_arg11 : FVec F S8x8 .f32) (main_arg12 : FVec F S8 .f32) (main_arg13 : FVec F S8x8 .f32) (main_arg14 : FVec F S8 .f32) (main_arg15 : FVec F S8x8 .f32) (main_arg16 : FVec F S8 .f32) (main_arg17 : FVec F S8x8 .f32) (main_arg18 : FVec F S8 .f32) (main_arg19 : FVec F S5x8 .f32) (main_arg20 : FVec F S5 .f32) (main_arg21 : FVec F S3x5 .f32) (main_arg22 : FVec F S3 .f32) (main_arg23 : FVec F S1x3 .f32) (main_arg24 : FVec F S1 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x8 .f32 := Host.absf main_arg5
  let main_cst_8 : FVec F S_ .f32 := constant S_ .f32 0x7F800000#32
  let main_v25 : FVec F S8x8 .f32 := broadcastInDim S8x8 ![] bcast_S_S8x8 main_cst_8
  let main_v26 : IVec S8x8 1 := cmpf .olt main_v24 main_v25
  let main_c_9 : IVec S_ 1 := constantI S_ 1 1#1
  let main_v27 : IVec S_ 1 := (fun x v => Host.reduce IntOp.andi x v reducesTo_S8x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S4194304x8 .f32) (main_arg1 : FVec F S8x8 .f32) (main_arg2 : FVec F S8 .f32) (main_arg3 : FVec F S8x8 .f32) (main_arg4 : FVec F S8 .f32) (main_arg5 : FVec F S8x8 .f32) (main_arg6 : FVec F S8 .f32) (main_arg7 : FVec F S8x8 .f32) (main_arg8 : FVec F S8 .f32) (main_arg9 : FVec F S8x8 .f32) (main_arg10 : FVec F S8 .f32) (main_arg11 : FVec F S8x8 .f32) (main_arg12 : FVec F S8 .f32) (main_arg13 : FVec F S8x8 .f32) (main_arg14 : FVec F S8 .f32) (main_arg15 : FVec F S8x8 .f32) (main_arg16 : FVec F S8 .f32) (main_arg17 : FVec F S8x8 .f32) (main_arg18 : FVec F S8 .f32) (main_arg19 : FVec F S5x8 .f32) (main_arg20 : FVec F S5 .f32) (main_arg21 : FVec F S3x5 .f32) (main_arg22 : FVec F S3 .f32) (main_arg23 : FVec F S1x3 .f32) (main_arg24 : FVec F S1 .f32) : IVec S_ 1 :=
  let main_v0 : FVec F S4194304x8 .f32 := Host.absf main_arg0
  let main_cst : FVec F S_ .f32 := constant S_ .f32 0x7F800000#32
  let main_v1 : FVec F S4194304x8 .f32 := broadcastInDim S4194304x8 ![] bcast_S_S4194304x8 main_cst
  let main_v2 : IVec S4194304x8 1 := cmpf .olt main_v0 main_v1
  let main_c : IVec S_ 1 := constantI S_ 1 1#1
  let main_v3 : IVec S_ 1 := (fun x v => Host.reduce IntOp.andi x v reducesTo_S4194304x8_S_d0_1 h_S_) main_v2 main_c
  let main_v4 : FVec F S8x8 .f32 := Host.absf main_arg1
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x8 .f32 := Host.absf main_arg3
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S4194304x8 : Shape := ⟨2, ![4194304, 8]⟩
abbrev S8x8 : Shape := ⟨2, ![8, 8]⟩
abbrev S8 : Shape := ⟨1, ![8]⟩
abbrev S5x8 : Shape := ⟨2, ![5, 8]⟩
abbrev S5 : Shape := ⟨1, ![5]⟩
abbrev S3x5 : Shape := ⟨2, ![3, 5]⟩
abbrev S3 : Shape := ⟨1, ![3]⟩
abbrev S1x3 : Shape := ⟨2, ![1, 3]⟩
abbrev S1 : Shape := ⟨1, ![1]⟩
abbrev S8x5 : Shape := ⟨2, ![8, 5]⟩
abbrev S5x3 : Shape := ⟨2, ![5, 3]⟩
abbrev S3x1 : Shape := ⟨2, ![3, 1]⟩
abbrev S1x8 : Shape := ⟨2, ![1, 8]⟩
abbrev S1x5 : Shape := ⟨2, ![1, 5]⟩
abbrev S1x1 : Shape := ⟨2, ![1, 1]⟩
abbrev S4194304x1 : Shape := ⟨2, ![4194304, 1]⟩
abbrev S4096x8 : Shape := ⟨2, ![4096, 8]⟩
abbrev S4096x1 : Shape := ⟨2, ![4096, 1]⟩
abbrev S4096x5 : Shape := ⟨2, ![4096, 5]⟩
abbrev S4096x3 : Shape := ⟨2, ![4096, 3]⟩

abbrev nBuf : Space → Nat
  | .hbm => 50
  | .vmem => 28
  | .smem => 0
  | _ => 0

abbrev bufTy : (tb : Table) → Fin (tcTables nBuf tb) → BufTy
  | .hbm, ⟨0, _⟩ => ⟨S4194304x8, .f32⟩
  | .hbm, ⟨1, _⟩ => ⟨S8x8, .f32⟩
  | .hbm, ⟨2, _⟩ => ⟨S8, .f32⟩
  | .hbm, ⟨3, _⟩ => ⟨S8x8, .f32⟩
  | .hbm, ⟨4, _⟩ => ⟨S8, .f32⟩
  | .hbm, ⟨5, _⟩ => ⟨S8x8, .f32⟩
  | .hbm, ⟨6, _⟩ => ⟨S8, .f32⟩
  | .hbm, ⟨7, _⟩ => ⟨S8x8, .f32⟩
  | .hbm, ⟨8, _⟩ => ⟨S8, .f32⟩
  | .hbm, ⟨9, _⟩ => ⟨S8x8, .f32⟩
  | .hbm, ⟨10, _⟩ => ⟨S8, .f32⟩
  | .hbm, ⟨11, _⟩ => ⟨S8x8, .f32⟩
  | .hbm, ⟨12, _⟩ => ⟨S8, .f32⟩
  | .hbm, ⟨13, _⟩ => ⟨S8x8, .f32⟩
  | .hbm, ⟨14, _⟩ => ⟨S8, .f32⟩
  | .hbm, ⟨15, _⟩ => ⟨S8x8, .f32⟩
  | .hbm, ⟨16, _⟩ => ⟨S8, .f32⟩
  | .hbm, ⟨17, _⟩ => ⟨S8x8, .f32⟩
  | .hbm, ⟨18, _⟩ => ⟨S8, .f32⟩
  | .hbm, ⟨19, _⟩ => ⟨S5x8, .f32⟩
  | .hbm, ⟨20, _⟩ => ⟨S5, .f32⟩
  | .hbm, ⟨21, _⟩ => ⟨S3x5, .f32⟩
  | .hbm, ⟨22, _⟩ => ⟨S3, .f32⟩
  | .hbm, ⟨23, _⟩ => ⟨S1x3, .f32⟩
  | .hbm, ⟨24, _⟩ => ⟨S1, .f32⟩
  | .hbm, ⟨25, _⟩ => ⟨S8x8, .f32⟩
  | .hbm, ⟨26, _⟩ => ⟨S8x8, .f32⟩
  | .hbm, ⟨27, _⟩ => ⟨S8x8, .f32⟩
  | .hbm, ⟨28, _⟩ => ⟨S8x8, .f32⟩
  | .hbm, ⟨29, _⟩ => ⟨S8x8, .f32⟩
  | .hbm, ⟨30, _⟩ => ⟨S8x8, .f32⟩
  | .hbm, ⟨31, _⟩ => ⟨S8x8, .f32⟩
  | .hbm, ⟨32, _⟩ => ⟨S8x8, .f32⟩
  | .hbm, ⟨33, _⟩ => ⟨S8x8, .f32⟩
  | .hbm, ⟨34, _⟩ => ⟨S8x5, .f32⟩
  | .hbm, ⟨35, _⟩ => ⟨S5x3, .f32⟩
  | .hbm, ⟨36, _⟩ => ⟨S3x1, .f32⟩
  | .hbm, ⟨37, _⟩ => ⟨S1x8, .f32⟩
  | .hbm, ⟨38, _⟩ => ⟨S1x8, .f32⟩
  | .hbm, ⟨39, _⟩ => ⟨S1x8, .f32⟩
  | .hbm, ⟨40, _⟩ => ⟨S1x8, .f32⟩
  | .hbm, ⟨41, _⟩ => ⟨S1x8, .f32⟩
  | .hbm, ⟨42, _⟩ => ⟨S1x8, .f32⟩
  | .hbm, ⟨43, _⟩ => ⟨S1x8, .f32⟩
  | .hbm, ⟨44, _⟩ => ⟨S1x8, .f32⟩
  | .hbm, ⟨45, _⟩ => ⟨S1x8, .f32⟩
  | .hbm, ⟨46, _⟩ => ⟨S1x5, .f32⟩
  | .hbm, ⟨47, _⟩ => ⟨S1x3, .f32⟩
  | .hbm, ⟨48, _⟩ => ⟨S1x1, .f32⟩
  | .hbm, ⟨49, _⟩ => ⟨S4194304x1, .f32⟩
  | .local _ .vmem, ⟨0, _⟩ => ⟨S4096x8, .f32⟩
  | .local _ .vmem, ⟨1, _⟩ => ⟨S4096x8, .f32⟩
  | .local _ .vmem, ⟨2, _⟩ => ⟨S8x8, .f32⟩
  | .local _ .vmem, ⟨3, _⟩ => ⟨S1x8, .f32⟩
  | .local _ .vmem, ⟨4, _⟩ => ⟨S8x8, .f32⟩
  | .local _ .vmem, ⟨5, _⟩ => ⟨S1x8, .f32⟩
  | .local _ .vmem, ⟨6, _⟩ => ⟨S8x8, .f32⟩
  | .local _ .vmem, ⟨7, _⟩ => ⟨S1x8, .f32⟩
  | .local _ .vmem, ⟨8, _⟩ => ⟨S8x8, .f32⟩
  | .local _ .vmem, ⟨9, _⟩ => ⟨S1x8, .f32⟩
  | .local _ .vmem, ⟨10, _⟩ => ⟨S8x8, .f32⟩
  | .local _ .vmem, ⟨11, _⟩ => ⟨S1x8, .f32⟩
  | .local _ .vmem, ⟨12, _⟩ => ⟨S8x8, .f32⟩
  | .local _ .vmem, ⟨13, _⟩ => ⟨S1x8, .f32⟩
  | .local _ .vmem, ⟨14, _⟩ => ⟨S8x8, .f32⟩
  | .local _ .vmem, ⟨15, _⟩ => ⟨S1x8, .f32⟩
  | .local _ .vmem, ⟨16, _⟩ => ⟨S8x8, .f32⟩
  | .local _ .vmem, ⟨17, _⟩ => ⟨S1x8, .f32⟩
  | .local _ .vmem, ⟨18, _⟩ => ⟨S8x8, .f32⟩
  | .local _ .vmem, ⟨19, _⟩ => ⟨S1x8, .f32⟩
  | .local _ .vmem, ⟨20, _⟩ => ⟨S8x5, .f32⟩
  | .local _ .vmem, ⟨21, _⟩ => ⟨S1x5, .f32⟩
  | .local _ .vmem, ⟨22, _⟩ => ⟨S5x3, .f32⟩
  | .local _ .vmem, ⟨23, _⟩ => ⟨S1x3, .f32⟩
  | .local _ .vmem, ⟨24, _⟩ => ⟨S3x1, .f32⟩
  | .local _ .vmem, ⟨25, _⟩ => ⟨S1x1, .f32⟩
  | .local _ .vmem, ⟨26, _⟩ => ⟨S4096x1, .f32⟩
  | .local _ .vmem, ⟨27, _⟩ => ⟨S4096x1, .f32⟩
  | _, _ => ⟨S4194304x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg25_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem25_1 : DmaSem sig := 27

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x5 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x5 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S5x3 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x3 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S3x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S4096x1 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

class Facts₀ : Prop where
  transposes_S8x8_S8x8_1_0 : S8x8.Transposes [1, 0] S8x8
  transposes_S5x8_S8x5_1_0 : S5x8.Transposes [1, 0] S8x5
  transposes_S3x5_S5x3_1_0 : S3x5.Transposes [1, 0] S5x3
  transposes_S1x3_S3x1_1_0 : S1x3.Transposes [1, 0] S3x1
  shapeCasts_S8_S1x8 : S8.ShapeCasts S1x8
  shapeCasts_S5_S1x5 : S5.ShapeCasts S1x5
  shapeCasts_S3_S1x3 : S3.ShapeCasts S1x3
  shapeCasts_S1_S1x1 : S1.ShapeCasts S1x1
  inb_S4096x8_S4096x8_0_0 : ∀ a, (![0, 0] : Fin 2 → Nat) a + S4096x8.size a ≤ S4096x8.size a
  h_S4096x8 : 0 < S4096x8.numel
  inb_S8x8_S8x8_0_0 : ∀ a, (![0, 0] : Fin 2 → Nat) a + S8x8.size a ≤ S8x8.size a
  h_S8x8 : 0 < S8x8.numel
  shapeCasts_S8x8_S8x8 : S8x8.ShapeCasts S8x8
  bitsLt_bf16_f32 : FTy.bits .bf16 < FTy.bits .f32
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4096x8 : S1x8.Broadcasts S4096x8
  inb_S8x5_S8x5_0_0 : ∀ a, (![0, 0] : Fin 2 → Nat) a + S8x5.size a ≤ S8x5.size a
  h_S8x5 : 0 < S8x5.numel
  shapeCasts_S8x5_S8x5 : S8x5.ShapeCasts S8x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S4096x5 : S1x5.Broadcasts S4096x5
  inb_S5x3_S5x3_0_0 : ∀ a, (![0, 0] : Fin 2 → Nat) a + S5x3.size a ≤ S5x3.size a
  h_S5x3 : 0 < S5x3.numel
  shapeCasts_S5x3_S5x3 : S5x3.ShapeCasts S5x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4096x3 : S1x3.Broadcasts S4096x3
  inb_S3x1_S3x1_0_0 : ∀ a, (![0, 0] : Fin 2 → Nat) a + S3x1.size a ≤ S3x1.size a
  h_S3x1 : 0 < S3x1.numel
  shapeCasts_S3x1_S3x1 : S3x1.ShapeCasts S3x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  dot_S4096x8_S8x8_S4096x8_1_0_0_1_n_n_wf : DotDims.WF S4096x8 S8x8 S4096x8 [1] [0] [0] [1] [] []
  dot_S4096x8_S8x5_S4096x5_1_0_0_1_n_n_wf : DotDims.WF S4096x8 S8x5 S4096x5 [1] [0] [0] [1] [] []
  dot_S4096x5_S5x3_S4096x3_1_0_0_1_n_n_wf : DotDims.WF S4096x5 S5x3 S4096x3 [1] [0] [0] [1] [] []
  dot_S4096x3_S3x1_S4096x1_1_0_0_1_n_n_wf : DotDims.WF S4096x3 S3x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S4194304x8.size a
  hwx0_0 : ∀ i : grid0.Coords, EltTy.bits .f32 = 32 ∨ (Rect.block (s := S4194304x8) S4096x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x8.size a ≤ S8x8.size a
  hwx0_1 : ∀ i : grid0.Coords, EltTy.bits .f32 = 32 ∨ (Rect.block (s := S8x8) S8x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x8.size a ≤ S8x8.size a
  hwx0_3 : ∀ i : grid0.Coords, EltTy.bits .f32 = 32 ∨ (Rect.block (s := S8x8) S8x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x8.size a ≤ S8x8.size a
  hwx0_5 : ∀ i : grid0.Coords, EltTy.bits .f32 = 32 ∨ (Rect.block (s := S8x8) S8x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x8.size a ≤ S8x8.size a
  hwx0_7 : ∀ i : grid0.Coords, EltTy.bits .f32 = 32 ∨ (Rect.block (s := S8x8) S8x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8.size a ≤ S1x8.size a
  hwx0_8 : ∀ i : grid0.Coords, EltTy.bits .f32 = 32 ∨ (Rect.block (s := S1x8) S1x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x8.size a ≤ S8x8.size a
  hwx0_9 : ∀ i : grid0.Coords, EltTy.bits .f32 = 32 ∨ (Rect.block (s := S8x8) S8x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x8.size a ≤ S1x8.size a
  hwx0_10 : ∀ i : grid0.Coords, EltTy.bits .f32 = 32 ∨ (Rect.block (s := S1x8) S1x8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x8.size a ≤ S8x8.size a
  hwx0_11 : ∀ i : grid0.Coords, EltTy.bits .f32 = 32 ∨ (Rect.block (s := S8x8) S8x8.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x8.size a ≤ S1x8.size a
  hwx0_12 : ∀ i : grid0.Coords, EltTy.bits .f32 = 32 ∨ (Rect.block (s := S1x8) S1x8.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S8x8.size a ≤ S8x8.size a
  hwx0_13 : ∀ i : grid0.Coords, EltTy.bits .f32 = 32 ∨ (Rect.block (s := S8x8) S8x8.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x8.size a ≤ S1x8.size a
  hwx0_14 : ∀ i : grid0.Coords, EltTy.bits .f32 = 32 ∨ (Rect.block (s := S1x8) S1x8.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S8x8.size a ≤ S8x8.size a
  hwx0_15 : ∀ i : grid0.Coords, EltTy.bits .f32 = 32 ∨ (Rect.block (s := S8x8) S8x8.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x8.size a ≤ S1x8.size a
  hwx0_16 : ∀ i : grid0.Coords, EltTy.bits .f32 = 32 ∨ (Rect.block (s := S1x8) S1x8.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S8x8.size a ≤ S8x8.size a
  hwx0_17 : ∀ i : grid0.Coords, EltTy.bits .f32 = 32 ∨ (Rect.block (s := S8x8) S8x8.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x8.size a ≤ S1x8.size a
  hwx0_18 : ∀ i : grid0.Coords, EltTy.bits .f32 = 32 ∨ (Rect.block (s := S1x8) S1x8.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S8x5.size a ≤ S8x5.size a
  hwx0_19 : ∀ i : grid0.Coords, EltTy.bits .f32 = 32 ∨ (Rect.block (s := S8x5) S8x5.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x5.size a ≤ S1x5.size a
  hwx0_20 : ∀ i : grid0.Coords, EltTy.bits .f32 = 32 ∨ (Rect.block (s := S1x5) S1x5.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S5x3.size a ≤ S5x3.size a
  hwx0_21 : ∀ i : grid0.Coords, EltTy.bits .f32 = 32 ∨ (Rect.block (s := S5x3) S5x3.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x3.size a ≤ S1x3.size a
  hwx0_22 : ∀ i : grid0.Coords, EltTy.bits .f32 = 32 ∨ (Rect.block (s := S1x3) S1x3.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S3x1.size a ≤ S3x1.size a
  hwx0_23 : ∀ i : grid0.Coords, EltTy.bits .f32 = 32 ∨ (Rect.block (s := S3x1) S3x1.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x1.size a ≤ S1x1.size a
  hwx0_24 : ∀ i : grid0.Coords, EltTy.bits .f32 = 32 ∨ (Rect.block (s := S1x1) S1x1.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S4096x1.size a ≤ S4194304x1.size a
  hwx0_25 : ∀ i : grid0.Coords, EltTy.bits .f32 = 32 ∨ (Rect.block (s := S4194304x1) S4096x1.size (cc0_transform_25 i) (hinb0_25 i)).WholeWords (EltTy.packing .f32)

variable [Facts₀]

def dot_S4096x8_S8x8_S4096x8_1_0_0_1_n_n : DotDims S4096x8 S8x8 S4096x8 where
  lhsContracting := [1]
  rhsContracting := [0]
  lhsNonContracting := [0]
  rhsNonContracting := [1]
  lhsBatch := []
  rhsBatch := []
  wf := dot_S4096x8_S8x8_S4096x8_1_0_0_1_n_n_wf
def dot_S4096x8_S8x5_S4096x5_1_0_0_1_n_n : DotDims S4096x8 S8x5 S4096x5 where
  lhsContracting := [1]
  rhsContracting := [0]
  lhsNonContracting := [0]
  rhsNonContracting := [1]
  lhsBatch := []
  rhsBatch := []
  wf := dot_S4096x8_S8x5_S4096x5_1_0_0_1_n_n_wf
def dot_S4096x5_S5x3_S4096x3_1_0_0_1_n_n : DotDims S4096x5 S5x3 S4096x3 where
  lhsContracting := [1]
  rhsContracting := [0]
  lhsNonContracting := [0]
  rhsNonContracting := [1]
  lhsBatch := []
  rhsBatch := []
  wf := dot_S4096x5_S5x3_S4096x3_1_0_0_1_n_n_wf
def dot_S4096x3_S3x1_S4096x1_1_0_0_1_n_n : DotDims S4096x3 S3x1 S4096x1 where
  lhsContracting := [1]
  rhsContracting := [0]
  lhsNonContracting := [0]
  rhsNonContracting := [1]
  lhsBatch := []
  rhsBatch := []
  wf := dot_S4096x3_S3x1_S4096x1_1_0_0_1_n_n_wf

abbrev win0_0 : Pipeline.Window sig grid0 :=
  Pipeline.Window.ofSpec (Memref.whole main_arg0) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S8x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S8x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S1x8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S8x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S8x8.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v18) S1x8.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v7) S8x8.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v19) S1x8.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v8) S8x8.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v20) S1x8.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v9) S8x5.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v21) S1x5.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v10) S5x3.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v22) S1x3.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v11) S3x1.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v23) S1x1.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v24) S4096x1.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S4194304x8 : Shape := ⟨2, ![4194304, 8]⟩
abbrev S8x8 : Shape := ⟨2, ![8, 8]⟩
abbrev S8 : Shape := ⟨1, ![8]⟩
abbrev S5x8 : Shape := ⟨2, ![5, 8]⟩
abbrev S5 : Shape := ⟨1, ![5]⟩
abbrev S3x5 : Shape := ⟨2, ![3, 5]⟩
abbrev S3 : Shape := ⟨1, ![3]⟩
abbrev S1x3 : Shape := ⟨2, ![1, 3]⟩
abbrev S1 : Shape := ⟨1, ![1]⟩
abbrev S1x8 : Shape := ⟨2, ![1, 8]⟩
abbrev S8x5 : Shape := ⟨2, ![8, 5]⟩
abbrev S4194304x5 : Shape := ⟨2, ![4194304, 5]⟩
abbrev S1x5 : Shape := ⟨2, ![1, 5]⟩
abbrev S5x3 : Shape := ⟨2, ![5, 3]⟩
abbrev S4194304x3 : Shape := ⟨2, ![4194304, 3]⟩
abbrev S3x1 : Shape := ⟨2, ![3, 1]⟩
abbrev S4194304x1 : Shape := ⟨2, ![4194304, 1]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S4194304x8, .f32⟩
  | .hbm, ⟨1, _⟩ => ⟨S8x8, .f32⟩
  | .hbm, ⟨2, _⟩ => ⟨S8, .f32⟩
  | .hbm, ⟨3, _⟩ => ⟨S8x8, .f32⟩
  | .hbm, ⟨4, _⟩ => ⟨S8, .f32⟩
  | .hbm, ⟨5, _⟩ => ⟨S8x8, .f32⟩
  | .hbm, ⟨6, _⟩ => ⟨S8, .f32⟩
  | .hbm, ⟨7, _⟩ => ⟨S8x8, .f32⟩
  | .hbm, ⟨8, _⟩ => ⟨S8, .f32⟩
  | .hbm, ⟨9, _⟩ => ⟨S8x8, .f32⟩
  | .hbm, ⟨10, _⟩ => ⟨S8, .f32⟩
  | .hbm, ⟨11, _⟩ => ⟨S8x8, .f32⟩
  | .hbm, ⟨12, _⟩ => ⟨S8, .f32⟩
  | .hbm, ⟨13, _⟩ => ⟨S8x8, .f32⟩
  | .hbm, ⟨14, _⟩ => ⟨S8, .f32⟩
  | .hbm, ⟨15, _⟩ => ⟨S8x8, .f32⟩
  | .hbm, ⟨16, _⟩ => ⟨S8, .f32⟩
  | .hbm, ⟨17, _⟩ => ⟨S8x8, .f32⟩
  | .hbm, ⟨18, _⟩ => ⟨S8, .f32⟩
  | .hbm, ⟨19, _⟩ => ⟨S5x8, .f32⟩
  | .hbm, ⟨20, _⟩ => ⟨S5, .f32⟩
  | .hbm, ⟨21, _⟩ => ⟨S3x5, .f32⟩
  | .hbm, ⟨22, _⟩ => ⟨S3, .f32⟩
  | .hbm, ⟨23, _⟩ => ⟨S1x3, .f32⟩
  | .hbm, ⟨24, _⟩ => ⟨S1, .f32⟩
  | .hbm, ⟨25, _⟩ => ⟨S8x8, .f32⟩
  | .hbm, ⟨26, _⟩ => ⟨S4194304x8, .f32⟩
  | .hbm, ⟨27, _⟩ => ⟨S1x8, .f32⟩
  | .hbm, ⟨28, _⟩ => ⟨S4194304x8, .f32⟩
  | .hbm, ⟨29, _⟩ => ⟨S4194304x8, .f32⟩
  | .hbm, ⟨30, _⟩ => ⟨S4194304x8, .f32⟩
  | .hbm, ⟨31, _⟩ => ⟨S8x8, .f32⟩
  | .hbm, ⟨32, _⟩ => ⟨S4194304x8, .f32⟩
  | .hbm, ⟨33, _⟩ => ⟨S1x8, .f32⟩
  | .hbm, ⟨34, _⟩ => ⟨S4194304x8, .f32⟩
  | .hbm, ⟨35, _⟩ => ⟨S4194304x8, .f32⟩
  | .hbm, ⟨36, _⟩ => ⟨S4194304x8, .f32⟩
  | .hbm, ⟨37, _⟩ => ⟨S8x8, .f32⟩
  | .hbm, ⟨38, _⟩ => ⟨S4194304x8, .f32⟩
  | .hbm, ⟨39, _⟩ => ⟨S1x8, .f32⟩
  | .hbm, ⟨40, _⟩ => ⟨S4194304x8, .f32⟩
  | .hbm, ⟨41, _⟩ => ⟨S4194304x8, .f32⟩
  | .hbm, ⟨42, _⟩ => ⟨S4194304x8, .f32⟩
  | .hbm, ⟨43, _⟩ => ⟨S8x8, .f32⟩
  | .hbm, ⟨44, _⟩ => ⟨S4194304x8, .f32⟩
  | .hbm, ⟨45, _⟩ => ⟨S1x8, .f32⟩
  | .hbm, ⟨46, _⟩ => ⟨S4194304x8, .f32⟩
  | .hbm, ⟨47, _⟩ => ⟨S4194304x8, .f32⟩
  | .hbm, ⟨48, _⟩ => ⟨S4194304x8, .f32⟩
  | .hbm, ⟨49, _⟩ => ⟨S8x8, .f32⟩
  | .hbm, ⟨50, _⟩ => ⟨S4194304x8, .f32⟩
  | .hbm, ⟨51, _⟩ => ⟨S1x8, .f32⟩
  | .hbm, ⟨52, _⟩ => ⟨S4194304x8, .f32⟩
  | .hbm, ⟨53, _⟩ => ⟨S4194304x8, .f32⟩
  | .hbm, ⟨54, _⟩ => ⟨S4194304x8, .f32⟩
  | .hbm, ⟨55, _⟩ => ⟨S4194304x8, .f32⟩
  | .hbm, ⟨56, _⟩ => ⟨S8x8, .f32⟩
  | .hbm, ⟨57, _⟩ => ⟨S4194304x8, .f32⟩
  | .hbm, ⟨58, _⟩ => ⟨S1x8, .f32⟩
  | .hbm, ⟨59, _⟩ => ⟨S4194304x8, .f32⟩
  | .hbm, ⟨60, _⟩ => ⟨S4194304x8, .f32⟩
  | .hbm, ⟨61, _⟩ => ⟨S4194304x8, .f32⟩
  | .hbm, ⟨62, _⟩ => ⟨S8x8, .f32⟩
  | .hbm, ⟨63, _⟩ => ⟨S4194304x8, .f32⟩
  | .hbm, ⟨64, _⟩ => ⟨S1x8, .f32⟩
  | .hbm, ⟨65, _⟩ => ⟨S4194304x8, .f32⟩
  | .hbm, ⟨66, _⟩ => ⟨S4194304x8, .f32⟩
  | .hbm, ⟨67, _⟩ => ⟨S4194304x8, .f32⟩
  | .hbm, ⟨68, _⟩ => ⟨S4194304x8, .f32⟩
  | .hbm, ⟨69, _⟩ => ⟨S8x8, .f32⟩
  | .hbm, ⟨70, _⟩ => ⟨S4194304x8, .f32⟩
  | .hbm, ⟨71, _⟩ => ⟨S1x8, .f32⟩
  | .hbm, ⟨72, _⟩ => ⟨S4194304x8, .f32⟩
  | .hbm, ⟨73, _⟩ => ⟨S4194304x8, .f32⟩
  | .hbm, ⟨74, _⟩ => ⟨S4194304x8, .f32⟩
  | .hbm, ⟨75, _⟩ => ⟨S8x8, .f32⟩
  | .hbm, ⟨76, _⟩ => ⟨S4194304x8, .f32⟩
  | .hbm, ⟨77, _⟩ => ⟨S1x8, .f32⟩
  | .hbm, ⟨78, _⟩ => ⟨S4194304x8, .f32⟩
  | .hbm, ⟨79, _⟩ => ⟨S4194304x8, .f32⟩
  | .hbm, ⟨80, _⟩ => ⟨S4194304x8, .f32⟩
  | .hbm, ⟨81, _⟩ => ⟨S4194304x8, .f32⟩
  | .hbm, ⟨82, _⟩ => ⟨S8x5, .f32⟩
  | .hbm, ⟨83, _⟩ => ⟨S4194304x5, .f32⟩
  | .hbm, ⟨84, _⟩ => ⟨S1x5, .f32⟩
  | .hbm, ⟨85, _⟩ => ⟨S4194304x5, .f32⟩
  | .hbm, ⟨86, _⟩ => ⟨S4194304x5, .f32⟩
  | .hbm, ⟨87, _⟩ => ⟨S4194304x5, .f32⟩
  | .hbm, ⟨88, _⟩ => ⟨S5x3, .f32⟩
  | .hbm, ⟨89, _⟩ => ⟨S4194304x3, .f32⟩
  | .hbm, ⟨90, _⟩ => ⟨S1x3, .f32⟩
  | .hbm, ⟨91, _⟩ => ⟨S4194304x3, .f32⟩
  | .hbm, ⟨92, _⟩ => ⟨S4194304x3, .f32⟩
  | .hbm, ⟨93, _⟩ => ⟨S4194304x3, .f32⟩
  | .hbm, ⟨94, _⟩ => ⟨S3x1, .f32⟩
  | .hbm, ⟨95, _⟩ => ⟨S4194304x1, .f32⟩
  | .hbm, ⟨96, _⟩ => ⟨S1x1, .f32⟩
  | .hbm, ⟨97, _⟩ => ⟨S4194304x1, .f32⟩
  | .hbm, ⟨98, _⟩ => ⟨S4194304x1, .f32⟩
  | _, _ => ⟨S4194304x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]

class Facts₀ : Prop where
  transposes_S8x8_S8x8_1_0 : S8x8.Transposes [1, 0] S8x8
  bcast_S8_S1x8_1 : S8.BroadcastsInDim S1x8 (![1] : Fin 1 → Fin S1x8.rank)
  bcast_S1x8_S4194304x8_0_1 : S1x8.BroadcastsInDim S4194304x8 (![0, 1] : Fin 2 → Fin S4194304x8.rank)
  transposes_S5x8_S8x5_1_0 : S5x8.Transposes [1, 0] S8x5
  bcast_S5_S1x5_1 : S5.BroadcastsInDim S1x5 (![1] : Fin 1 → Fin S1x5.rank)
  bcast_S1x5_S4194304x5_0_1 : S1x5.BroadcastsInDim S4194304x5 (![0, 1] : Fin 2 → Fin S4194304x5.rank)
  transposes_S3x5_S5x3_1_0 : S3x5.Transposes [1, 0] S5x3
  bcast_S3_S1x3_1 : S3.BroadcastsInDim S1x3 (![1] : Fin 1 → Fin S1x3.rank)
  bcast_S1x3_S4194304x3_0_1 : S1x3.BroadcastsInDim S4194304x3 (![0, 1] : Fin 2 → Fin S4194304x3.rank)
  transposes_S1x3_S3x1_1_0 : S1x3.Transposes [1, 0] S3x1
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  dot_S4194304x8_S8x8_S4194304x8_1_0_0_1_n_n_wf : DotDims.WF S4194304x8 S8x8 S4194304x8 [1] [0] [0] [1] [] []
  dot_S4194304x8_S8x5_S4194304x5_1_0_0_1_n_n_wf : DotDims.WF S4194304x8 S8x5 S4194304x5 [1] [0] [0] [1] [] []
  dot_S4194304x5_S5x3_S4194304x3_1_0_0_1_n_n_wf : DotDims.WF S4194304x5 S5x3 S4194304x3 [1] [0] [0] [1] [] []
  dot_S4194304x3_S3x1_S4194304x1_1_0_0_1_n_n_wf : DotDims.WF S4194304x3 S3x1 S4194304x1 [1] [0] [0] [1] [] []

variable [Facts₀]

def dot_S4194304x8_S8x8_S4194304x8_1_0_0_1_n_n : DotDims S4194304x8 S8x8 S4194304x8 where
  lhsContracting := [1]
  rhsContracting := [0]
  lhsNonContracting := [0]
  rhsNonContracting := [1]
  lhsBatch := []
  rhsBatch := []
  wf := dot_S4194304x8_S8x8_S4194304x8_1_0_0_1_n_n_wf
def dot_S4194304x8_S8x5_S4194304x5_1_0_0_1_n_n : DotDims S4194304x8 S8x5 S4194304x5 where
  lhsContracting := [1]
  rhsContracting := [0]
  lhsNonContracting := [0]
  rhsNonContracting := [1]
  lhsBatch := []
  rhsBatch := []
  wf := dot_S4194304x8_S8x5_S4194304x5_1_0_0_1_n_n_wf
def dot_S4194304x5_S5x3_S4194304x3_1_0_0_1_n_n : DotDims S4194304x5 S5x3 S4194304x3 where
  lhsContracting := [1]
  rhsContracting := [0]
  lhsNonContracting := [0]
  rhsNonContracting := [1]
  lhsBatch := []
  rhsBatch := []
  wf := dot_S4194304x5_S5x3_S4194304x3_1_0_0_1_n_n_wf
def dot_S4194304x3_S3x1_S4194304x1_1_0_0_1_n_n : DotDims S4194304x3 S3x1 S4194304x1 where
  lhsContracting := [1]
  rhsContracting := [0]
  lhsNonContracting := [0]
  rhsNonContracting := [1]
  lhsBatch := []
  rhsBatch := []
  wf := dot_S4194304x3_S3x1_S4194304x1_1_0_0_1_n_n_wf

class Facts : Prop extends Facts₀ where

variable [Facts]
-- ==== Proof.LibRows.lean ====
/-
  A dense layer, read one row at a time.

  Two parts, both free of any program.

  PART 1, a plain matrix product read at an index. For a contraction with the dimension numbers of an ordinary
  `M×K` by `K×N` product (the left operand contracted on its axis 1, the right one on its axis 0, no batch axes)
  the operand indices at the result index `(r, c)` and the contraction position `k` are `(r, k)` and `(k, c)`. So
  the sum over the contraction index, which is how both a kernel's matrix product and the host's read at the
  ideal values, is the textbook `∑ k, lhs (r, k) · rhs (k, c)`. Stated for ANY record with those dimension
  numbers, so that one lemma serves every product of a program, whatever its extents.

  PART 2, the operations of a dense layer `y = x · Wᵀ + b` followed by `tanh` act on each row of `x` by itself:
  row `r` of the product is `j ↦ ∑ k, x (r, k) · W (j, k)`, row `r` of the broadcast bias is the bias, and the
  sum and `tanh` are entry by entry. The lemmas below say so for the two spellings the same layer has: the
  kernel's (the weight already transposed, `[in, out]`, narrowed to bf16 with the activations, a product
  into a zero accumulator, the bias a `[1, out]` row broadcast down the rows) and the host's (the weight
  `[out, in]` transposed on the spot, the bias `[out]` broadcast in two steps). At the ideal values narrowing a
  float is the identity, so both read the same.
-/
import Idealize.ShloMosaic.PureOps.Ideal.Laws
import Idealize.ShloMosaic.Lib.ValueIdx
import Idealize.ShloMosaic.Lib.Pipeline.Value

noncomputable section

/-! ## Part 1: a plain matrix product read at an index -/

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of an ordinary matrix product: `[1], [0], [0], [1]`, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- A coordinate read at two positions that are the same number. -/
private theorem coord_congr {R : Nat} {sz : Fin R → Nat} (j : (a : Fin R) → Fin (sz a)) (p q : Nat) (hp : p < R) (hq : q < R)
    (e : p = q) : (j ⟨p, hp⟩).val = (j ⟨q, hq⟩).val := by subst e; rfl

/-- The left operand's row is the result's row. -/
theorem lhs_row (h : IsPlain d) (j : (⟨2, ![M, N]⟩ : Shape).Idx) (k : d.contr.Idx) : (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction position. -/
theorem lhs_col (h : IsPlain d) (j : (⟨2, ![M, N]⟩ : Shape).Idx) (k : d.contr.Idx) :
    (d.lhsIdx j k 1).val = (k ⟨0, by rw [d.rank_contr, h.lc]; exact Nat.one_pos⟩).val :=
  d.lhsIdx_val_of_single h.lc j k

/-- The right operand's row is the contraction position. -/
theorem rhs_row (h : IsPlain d) (j : (⟨2, ![M, N]⟩ : Shape).Idx) (k : d.contr.Idx) :
    (d.rhsIdx j k 0).val = (k ⟨0, by rw [d.rank_contr, h.lc]; exact Nat.one_pos⟩).val :=
  d.rhsIdx_val_of_single h.rc j k

/-- The right operand's column is the result's column. -/
theorem rhs_col (h : IsPlain d) (j : (⟨2, ![M, N]⟩ : Shape).Idx) (k : d.contr.Idx) : (d.rhsIdx j k 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  have key : ∀ (l : List (Fin (⟨2, ![M, K]⟩ : Shape).rank)) (hl : l = [1]) (hp : 0 < l.length),
      (⟨2, ![M, K]⟩ : Shape).size l[0] = K := by rintro _ rfl _; rfl
  exact (d.size_contr 0 (by rw [h.lc]; exact Nat.one_pos)).trans (key _ h.lc _)

/-- The sum over the contraction index of a plain product is the sum over `k : Fin K` of
    `lhs (r, k) · rhs (k, c)`. -/
theorem sum_eq (h : IsPlain d) (f : (⟨2, ![M, K]⟩ : Shape).Idx → EReal) (g : (⟨2, ![K, N]⟩ : Shape).Idx → EReal)
    (j : (⟨2, ![M, N]⟩ : Shape).Idx) :
    ∑ k : d.contr.Idx, f (d.lhsIdx j k) * g (d.rhsIdx j k) = ∑ k : Fin K, f (ix2 (j 0) k) * g (ix2 k (j 1)) := by
  rw [← Equiv.sum_comp (contrEquiv1 d K (contr_rank h) (contr_size h)).symm]
  refine Finset.sum_congr rfl fun k _ => ?_
  have e1 : d.lhsIdx j ((contrEquiv1 d K (contr_rank h) (contr_size h)).symm k) = ix2 (j 0) k := by
    funext a
    match a with
    | ⟨0, _⟩ => exact Fin.ext (lhs_row h j _)
    | ⟨1, _⟩ => exact Fin.ext ((lhs_col h j _).trans (contrEquiv1_symm_val d K (contr_rank h) (contr_size h) k))
  have e2 : d.rhsIdx j ((contrEquiv1 d K (contr_rank h) (contr_size h)).symm k) = ix2 k (j 1) := by
    funext a
    match a with
    | ⟨0, _⟩ => exact Fin.ext ((rhs_row h j _).trans (contrEquiv1_symm_val d K (contr_rank h) (contr_size h) k))
    | ⟨1, _⟩ => exact Fin.ext (rhs_col h j _)
  exact congrArg₂ (fun a b => f a * g b) e1 e2

/-- A kernel's matrix product of plain dimension numbers into the zero accumulator, at the ideal values and at the
    index `(r, c)`. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    matmul d prec lhs rhs (constant ⟨2, ![M, N]⟩ .f32 0x00000000#32) (ix2 r c) = ∑ k : Fin K, lhs (ix2 r k) * rhs (ix2 k c) :=
  (Ideal.matmul_constant_zero_apply d prec lhs rhs (ix2 r c)).trans (sum_eq h lhs rhs (ix2 r c))

/-- The host's matrix product of plain dimension numbers, at the ideal values and at the index `(r, c)`. -/
theorem dotGeneral_apply (h : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) :=
  (Ideal.dotGeneral_apply d prec .single lhs rhs (ix2 r c)).trans (sum_eq h lhs rhs (ix2 r c))

end Cert.PlainDot

/-! ## Part 2: the operations of a dense layer, row by row -/

namespace Cert.Rows

open Idealize.ShloMosaic Idealize.ShloMosaic.ValueIdx Cert.PlainDot

/-- Row `r` of a rank-2 array. -/
def row {R n : Nat} (a : (⟨2, ![R, n]⟩ : Shape).Idx → EReal) (r : Fin R) : Fin n → EReal :=
  fun k => a (ix2 r k)

/-- A weight `[out, in]` applied to a row: `j ↦ ∑ k, v k · W j k`. -/
def mm {n o : Nat} (W : Fin o → Fin n → EReal) (v : Fin n → EReal) : Fin o → EReal :=
  fun j => ∑ k : Fin n, v k * W j k

/-- The sum of two rows, entry by entry. -/
def radd {o : Nat} (u v : Fin o → EReal) : Fin o → EReal := fun j => u j + v j

/-- `tanh` on a row, entry by entry (on the extended reals: `-1` and `1` at the infinities). -/
def act {o : Nat} (v : Fin o → EReal) : Fin o → EReal := fun j => Ideal.tanh (v j)

/-- A weight array `[out, in]` as a function of its two coordinates. -/
def wOf {o n : Nat} (W : (⟨2, ![o, n]⟩ : Shape).Idx → EReal) : Fin o → Fin n → EReal := fun j k => W (ix2 j k)

/-- A weight array stored transposed, `[in, out]`, as the same function of `(out, in)`. -/
def wOfT {n o : Nat} (Wt : (⟨2, ![n, o]⟩ : Shape).Idx → EReal) : Fin o → Fin n → EReal := fun j k => Wt (ix2 k j)

/-- A bias array `[out]` as a function of its coordinate. -/
def bOf {o : Nat} (b : (⟨1, ![o]⟩ : Shape).Idx → EReal) : Fin o → EReal := fun j => b (ix1 j)

/-! ### Entry by entry -/

theorem row_addf {R n : Nat} (u v : FVec Ideal ⟨2, ![R, n]⟩ .f32) (r : Fin R) :
    row (addf u v) r = radd (row u r) (row v r) := rfl

theorem row_tanh {R n : Nat} (u : FVec Ideal ⟨2, ![R, n]⟩ .f32) (r : Fin R) :
    row (tanh u) r = act (row u r) := rfl

theorem row_hostTanh {R n : Nat} (u : FVec Ideal ⟨2, ![R, n]⟩ .f32) (r : Fin R) :
    row (Host.tanh u) r = act (row u r) := rfl

/-! ### The kernel's spelling -/

/-- Row `r` of the kernel's product: the activations and the transposed weight narrowed (the identity at the ideal
    values), the weight passed through a cast to its own shape, the accumulator zero. -/
theorem row_matmul {M K N : Nat} {d : DotDims ⟨2, ![M, K]⟩ ⟨2, ![K, N]⟩ ⟨2, ![M, N]⟩} (h : IsPlain d)
    (a : FVec Ideal ⟨2, ![M, K]⟩ .f32) (wt : FVec Ideal ⟨2, ![K, N]⟩ .f32)
    (hb : FTy.bits .bf16 < FTy.bits .f32) (hc : Shape.ShapeCasts ⟨2, ![K, N]⟩ ⟨2, ![K, N]⟩) (r : Fin M) :
    row (matmul d none (truncf .bf16 a hb) (truncf .bf16 (shapeCast ⟨2, ![K, N]⟩ wt hc) hb)
      (constant ⟨2, ![M, N]⟩ .f32 0x00000000#32)) r = mm (wOfT wt) (row a r) := by
  funext j
  rw [shapeCast_self]
  exact matmul_zero_apply h none (truncf .bf16 a hb) (truncf .bf16 wt hb) r j

/-- Row `r` of a `[1, out]` row broadcast down `R` rows (through a cast to its own shape) is that row. -/
theorem row_broadcastTo {R o : Nat} (bb : FVec Ideal ⟨2, ![1, o]⟩ .f32)
    (hc : Shape.ShapeCasts ⟨2, ![1, o]⟩ ⟨2, ![1, o]⟩) (hb : Shape.Broadcasts ⟨2, ![1, o]⟩ ⟨2, ![R, o]⟩) (r : Fin R) :
    row (broadcastTo ⟨2, ![R, o]⟩ (shapeCast ⟨2, ![1, o]⟩ bb hc) hb) r = row bb 0 := by
  funext j
  rw [shapeCast_self]
  refine broadcastTo_apply bb hb (ix2 r j) (ix2 0 j) (fun a => ?_)
  match a with
  | ⟨0, _⟩ => show (0 : Nat) = if (1 : Nat) = 1 then 0 else _; rw [if_pos rfl]
  | ⟨1, _⟩ =>
    show j.val = if o = 1 then 0 else j.val
    by_cases ho : o = 1
    · rw [if_pos ho]; have := j.isLt; omega
    · rw [if_neg ho]

/-! ### The host's spelling -/

/-- Row `r` of the host's product with the weight `[out, in]` transposed on the spot. -/
theorem row_dotGeneral {M K N : Nat} {d : DotDims ⟨2, ![M, K]⟩ ⟨2, ![K, N]⟩ ⟨2, ![M, N]⟩} (h : IsPlain d)
    (a : FVec Ideal ⟨2, ![M, K]⟩ .f32) (W : FVec Ideal ⟨2, ![N, K]⟩ .f32)
    (ht : Shape.Transposes (⟨2, ![N, K]⟩ : Shape) [1, 0] ⟨2, ![K, N]⟩) (r : Fin M) :
    row (Host.dotGeneral d none a (transpose ⟨2, ![K, N]⟩ [1, 0] W ht)) r = mm (wOf W) (row a r) := by
  funext j
  refine (dotGeneral_apply h none a _ r j).trans (Finset.sum_congr rfl fun k _ => ?_)
  refine congrArg (a (ix2 r k) * ·) ?_
  exact transpose_apply [1, 0] W ht (ix2 k j) (ix2 j k) (fun b => match b with
    | ⟨0, _⟩ => rfl
    | ⟨1, _⟩ => rfl)

/-- Row `r` of a bias `[out]` broadcast to `[1, out]` and then down `R` rows is the bias. -/
theorem row_broadcastInDim {R o : Nat} (b : FVec Ideal ⟨1, ![o]⟩ .f32)
    (h1 : Shape.BroadcastsInDim (⟨1, ![o]⟩ : Shape) ⟨2, ![1, o]⟩ ![1])
    (h2 : Shape.BroadcastsInDim (⟨2, ![1, o]⟩ : Shape) ⟨2, ![R, o]⟩ ![0, 1]) (r : Fin R) :
    row (broadcastInDim ⟨2, ![R, o]⟩ ![0, 1] h2 (broadcastInDim ⟨2, ![1, o]⟩ ![1] h1 b)) r = bOf b := by
  funext j
  have e2 : broadcastInDim ⟨2, ![R, o]⟩ ![0, 1] h2 (broadcastInDim ⟨2, ![1, o]⟩ ![1] h1 b) (ix2 r j)
      = broadcastInDim ⟨2, ![1, o]⟩ ![1] h1 b (ix2 0 j) :=
    broadcastInDim_apply _ h2 _ (ix2 r j) (ix2 0 j) (fun a => match a with
      | ⟨0, _⟩ => by show (0 : Nat) = if (1 : Nat) = 1 then 0 else _; rw [if_pos rfl]
      | ⟨1, _⟩ => by
        show j.val = if o = 1 then 0 else j.val
        by_cases ho : o = 1
        · rw [if_pos ho]; have := j.isLt; omega
        · rw [if_neg ho])
  have e1 : broadcastInDim ⟨2, ![1, o]⟩ ![1] h1 b (ix2 0 j) = b (ix1 j) :=
    broadcastInDim_apply _ h1 b (ix2 0 j) (ix1 j) (fun a => match a with
      | ⟨0, _⟩ => by
        show j.val = if o = 1 then 0 else j.val
        by_cases ho : o = 1
        · rw [if_pos ho]; have := j.isLt; omega
        · rw [if_neg ho])
  exact e2.trans e1

/-! ### Weights and biases prepared ahead of the kernel -/

/-- A weight `[out, in]` transposed ahead of time and read back as `(out, in)` is the weight. -/
theorem wOfT_transpose {o n : Nat} (W : FVec Ideal ⟨2, ![o, n]⟩ .f32)
    (ht : Shape.Transposes (⟨2, ![o, n]⟩ : Shape) [1, 0] ⟨2, ![n, o]⟩) :
    wOfT (transpose ⟨2, ![n, o]⟩ [1, 0] W ht) = wOf W := by
  funext j k
  exact transpose_apply [1, 0] W ht (ix2 k j) (ix2 j k) (fun b => match b with
    | ⟨0, _⟩ => rfl
    | ⟨1, _⟩ => rfl)

/-- A bias `[out]` reshaped to a `[1, out]` row: that row is the bias. -/
theorem row_reshape {o : Nat} (b : FVec Ideal ⟨1, ![o]⟩ .f32)
    (hc : Shape.ShapeCasts (⟨1, ![o]⟩ : Shape) ⟨2, ![1, o]⟩) :
    row (shapeCast ⟨2, ![1, o]⟩ b hc) 0 = bOf b := by
  funext j
  refine shapeCast_apply b hc (ix2 0 j) (ix1 j) ?_
  rw [Shape.rowMajor_val_one, Shape.rowMajor_val_two]
  show j.val = 0 * o + j.val
  omega

end Cert.Rows

end
-- ==== Proof.Spec.lean ====
/-
  The mathematics of the network, one ROW at a time.

  Both programs apply the same twelve dense layers to each row of the input: a layer sends a row `v` to
  `j ↦ (∑ k, v k · W j k) + b j` (the weight stored `[out, in]`), eleven of the twelve are followed by `tanh`,
  and three of them add an earlier activation before the `tanh`. Nothing mixes rows, so the value of the result
  at row `r` is a function of row `r` of the input and of the (small) weights alone. This module states that
  function on the extended reals, with no program in sight.
-/
import proofs.«161150_j17222818857346_1_alg».proof.Proof.LibRows

noncomputable section

namespace Cert.Mlp

open Idealize.ShloMosaic Idealize.ShloMosaic.ValueIdx Cert.Rows

/-- One dense layer on a row: `j ↦ (∑ k, v k · W j k) + b j`. -/
def lin {n o : Nat} (W : Fin o → Fin n → EReal) (b : Fin o → EReal) (v : Fin n → EReal) : Fin o → EReal :=
  radd (mm W v) b

/-- The weights of the twelve layers, as functions of their coordinates. -/
structure Params where
  W1 : Fin 8 → Fin 8 → EReal
  b1 : Fin 8 → EReal
  W2 : Fin 8 → Fin 8 → EReal
  b2 : Fin 8 → EReal
  W3 : Fin 8 → Fin 8 → EReal
  b3 : Fin 8 → EReal
  W4 : Fin 8 → Fin 8 → EReal
  b4 : Fin 8 → EReal
  W5 : Fin 8 → Fin 8 → EReal
  b5 : Fin 8 → EReal
  W6 : Fin 8 → Fin 8 → EReal
  b6 : Fin 8 → EReal
  W7 : Fin 8 → Fin 8 → EReal
  b7 : Fin 8 → EReal
  W8 : Fin 8 → Fin 8 → EReal
  b8 : Fin 8 → EReal
  W9 : Fin 8 → Fin 8 → EReal
  b9 : Fin 8 → EReal
  W10 : Fin 5 → Fin 8 → EReal
  b10 : Fin 5 → EReal
  W11 : Fin 3 → Fin 5 → EReal
  b11 : Fin 3 → EReal
  W12 : Fin 1 → Fin 3 → EReal
  b12 : Fin 1 → EReal

/-- The network on one row: twelve layers, the fifth, seventh and ninth adding the second, fifth and seventh
    activations before their `tanh`, the last one without a `tanh`. -/
def net (P : Params) (x : Fin 8 → EReal) : Fin 1 → EReal :=
  let o1 := act (lin P.W1 P.b1 x)
  let o2 := act (lin P.W2 P.b2 o1)
  let o3 := act (lin P.W3 P.b3 o2)
  let o4 := act (lin P.W4 P.b4 o3)
  let o5 := act (radd (lin P.W5 P.b5 o4) o2)
  let o6 := act (lin P.W6 P.b6 o5)
  let o7 := act (radd (lin P.W7 P.b7 o6) o5)
  let o8 := act (lin P.W8 P.b8 o7)
  let o9 := act (radd (lin P.W9 P.b9 o8) o7)
  let o10 := act (lin P.W10 P.b10 o9)
  let o11 := act (lin P.W11 P.b11 o10)
  lin P.W12 P.b12 o11

/-- The whole result array `[rows, 1]`: at `(r, c)` the network on row `r` of `x`. -/
def G {R : Nat} (P : Params) (x : (⟨2, ![R, 8]⟩ : Shape).Idx → EReal) : (⟨2, ![R, 1]⟩ : Shape).Idx → EReal :=
  fun i => net P (row x (i 0)) (i 1)

end Cert.Mlp

end
-- ==== Proof.KernelRows.lean ====
/-
  The kernel's body, one row at a time.

  The body is a chain of values, each a function of the blocks it loaded: the input block `[4096, 8]`, twelve
  transposed weights `[in, out]` and twelve bias rows `[1, out]`. Row `p` of every value in the chain depends on
  row `p` of the input block only, through the layers' row functions; chaining these facts, row `p` of what the
  body stores is the network on row `p` of the input block.
-/
import proofs.«161150_j17222818857346_1_alg».proof.Proof.Gen.KernelIdeal.Skeleton
import proofs.«161150_j17222818857346_1_alg».proof.Proof.Spec

noncomputable section

namespace Cert.KernelIdeal.Rows

open Cert.KernelIdeal Cert.KernelIdeal.Gen Idealize.ShloMosaic Idealize.ShloMosaic.ValueIdx Cert.Rows Cert.PlainDot Cert.Mlp

/-! ## The four products of the body are plain matrix products -/

theorem plain_8_8 : IsPlain dot_S4096x8_S8x8_S4096x8_1_0_0_1_n_n := ⟨rfl, rfl, rfl, rfl, rfl, rfl⟩
theorem plain_8_5 : IsPlain dot_S4096x8_S8x5_S4096x5_1_0_0_1_n_n := ⟨rfl, rfl, rfl, rfl, rfl, rfl⟩
theorem plain_5_3 : IsPlain dot_S4096x5_S5x3_S4096x3_1_0_0_1_n_n := ⟨rfl, rfl, rfl, rfl, rfl, rfl⟩
theorem plain_3_1 : IsPlain dot_S4096x3_S3x1_S4096x1_1_0_0_1_n_n := ⟨rfl, rfl, rfl, rfl, rfl, rfl⟩

/-! ## Row `p` of each value of the chain -/

/-- The second activation: two layers on the input row. -/
theorem pay2_row (v0 : Vec Ideal S4096x8 .f32) (v1 : Vec Ideal S8x8 .f32) (v6 : Vec Ideal S1x8 .f32) (v11 : Vec Ideal S8x8 .f32) (v16 : Vec Ideal S1x8 .f32) (p : Fin 4096) :
    row (k0_pay2 (F := Ideal) v0 v1 v6 v11 v16) p
      = act (lin (wOfT v11) (row v16 0) (act (lin (wOfT v1) (row v6 0) (row v0 p)))) := by
  unfold k0_pay2
  simp only [lin, row_tanh, row_addf, row_matmul plain_8_8, row_broadcastTo]

/-- The fourth layer's product, before its bias: the third layer on the second activation, then the fourth weight. -/
theorem pay3_row (v0 : Vec Ideal S4096x8 .f32) (v1 : Vec Ideal S8x8 .f32) (v6 : Vec Ideal S1x8 .f32) (v11 : Vec Ideal S8x8 .f32) (v16 : Vec Ideal S1x8 .f32) (v21 : Vec Ideal S8x8 .f32) (v26 : Vec Ideal S1x8 .f32) (v31 : Vec Ideal S8x8 .f32) (p : Fin 4096) :
    row (k0_pay3 (F := Ideal) v0 v1 v6 v11 v16 v21 v26 v31) p
      = mm (wOfT v31) (act (lin (wOfT v21) (row v26 0) (row (k0_pay2 (F := Ideal) v0 v1 v6 v11 v16) p))) := by
  unfold k0_pay3
  simp only [lin, row_tanh, row_addf, row_matmul plain_8_8, row_broadcastTo]

/-- The seventh activation, from the second activation `v20` and the fourth layer's product `v35`. -/
theorem pay4_row (v20 v35 : FVec Ideal S4096x8 .f32) (v36 : Vec Ideal S1x8 .f32) (v41 : Vec Ideal S8x8 .f32) (v46 : Vec Ideal S1x8 .f32) (v52 : Vec Ideal S8x8 .f32) (v57 : Vec Ideal S1x8 .f32) (v62 : Vec Ideal S8x8 .f32) (v67 : Vec Ideal S1x8 .f32) (p : Fin 4096) :
    row (k0_pay4 (F := Ideal) v20 v35 v36 v41 v46 v52 v57 v62 v67) p
      = act (radd (lin (wOfT v62) (row v67 0) (act (lin (wOfT v52) (row v57 0)
          (act (radd (lin (wOfT v41) (row v46 0) (act (radd (row v35 p) (row v36 0)))) (row v20 p))))))
          (act (radd (lin (wOfT v41) (row v46 0) (act (radd (row v35 p) (row v36 0)))) (row v20 p)))) := by
  unfold k0_pay4
  simp only [lin, row_tanh, row_addf, row_matmul plain_8_8, row_broadcastTo]

/-- The eighth layer's product, before its bias. -/
theorem pay5_row (v20 v35 : FVec Ideal S4096x8 .f32) (v36 : Vec Ideal S1x8 .f32) (v41 : Vec Ideal S8x8 .f32) (v46 : Vec Ideal S1x8 .f32) (v52 : Vec Ideal S8x8 .f32) (v57 : Vec Ideal S1x8 .f32) (v62 : Vec Ideal S8x8 .f32) (v67 : Vec Ideal S1x8 .f32) (v73 : Vec Ideal S8x8 .f32) (p : Fin 4096) :
    row (k0_pay5 (F := Ideal) v20 v35 v36 v41 v46 v52 v57 v62 v67 v73) p
      = mm (wOfT v73) (row (k0_pay4 (F := Ideal) v20 v35 v36 v41 v46 v52 v57 v62 v67) p) := by
  unfold k0_pay5
  simp only [row_matmul plain_8_8]

/-- The twelfth layer's product, before its bias, from the seventh activation `v72` and the eighth layer's
    product `v77`. -/
theorem pay6_row (v72 v77 : FVec Ideal S4096x8 .f32) (v78 : Vec Ideal S1x8 .f32) (v83 : Vec Ideal S8x8 .f32) (v88 : Vec Ideal S1x8 .f32) (v94 : Vec Ideal S8x5 .f32) (v99 : Vec Ideal S1x5 .f32) (v104 : Vec Ideal S5x3 .f32) (v109 : Vec Ideal S1x3 .f32) (v114 : Vec Ideal S3x1 .f32) (p : Fin 4096) :
    row (k0_pay6 (F := Ideal) v72 v77 v78 v83 v88 v94 v99 v104 v109 v114) p
      = mm (wOfT v114) (act (lin (wOfT v104) (row v109 0) (act (lin (wOfT v94) (row v99 0)
          (act (radd (lin (wOfT v83) (row v88 0) (act (radd (row v77 p) (row v78 0)))) (row v72 p))))))) := by
  unfold k0_pay6
  simp only [lin, row_tanh, row_addf, row_matmul plain_8_8, row_matmul plain_8_5, row_matmul plain_5_3,
    row_matmul plain_3_1, row_broadcastTo]

/-- What is stored: the twelfth layer's product plus its bias. -/
theorem pay1_row (v118 : FVec Ideal S4096x1 .f32) (v119 : Vec Ideal S1x1 .f32) (p : Fin 4096) :
    row (k0_pay1 (F := Ideal) v118 v119) p = radd (row v118 p) (row v119 0) := by
  unfold k0_pay1
  simp only [row_addf, row_broadcastTo]

/-! ## The chain -/

/-- The layers' weights as the body finds them: the transposed weights read back as `(out, in)`, the bias rows. -/
def blockParams (x1 : Vec Ideal S8x8 .f32) (x2 : Vec Ideal S1x8 .f32) (x3 : Vec Ideal S8x8 .f32) (x4 : Vec Ideal S1x8 .f32) (x5 : Vec Ideal S8x8 .f32) (x6 : Vec Ideal S1x8 .f32) (x7 : Vec Ideal S8x8 .f32) (x8 : Vec Ideal S1x8 .f32) (x9 : Vec Ideal S8x8 .f32) (x10 : Vec Ideal S1x8 .f32) (x11 : Vec Ideal S8x8 .f32) (x12 : Vec Ideal S1x8 .f32) (x13 : Vec Ideal S8x8 .f32) (x14 : Vec Ideal S1x8 .f32) (x15 : Vec Ideal S8x8 .f32) (x16 : Vec Ideal S1x8 .f32) (x17 : Vec Ideal S8x8 .f32) (x18 : Vec Ideal S1x8 .f32) (x19 : Vec Ideal S8x5 .f32) (x20 : Vec Ideal S1x5 .f32) (x21 : Vec Ideal S5x3 .f32) (x22 : Vec Ideal S1x3 .f32) (x23 : Vec Ideal S3x1 .f32) (x24 : Vec Ideal S1x1 .f32) : Params :=
  ⟨wOfT x1, row x2 0, wOfT x3, row x4 0, wOfT x5, row x6 0, wOfT x7, row x8 0, wOfT x9, row x10 0, wOfT x11, row x12 0,
   wOfT x13, row x14 0, wOfT x15, row x16 0, wOfT x17, row x18 0, wOfT x19, row x20 0, wOfT x21, row x22 0, wOfT x23, row x24 0⟩

/-- Row `p` of what the body stores, as a function of the blocks it loaded: the network, at the weights those blocks
    hold, on row `p` of the input block. -/
theorem stored_row (x0 : Vec Ideal S4096x8 .f32) (x1 : Vec Ideal S8x8 .f32) (x2 : Vec Ideal S1x8 .f32) (x3 : Vec Ideal S8x8 .f32) (x4 : Vec Ideal S1x8 .f32) (x5 : Vec Ideal S8x8 .f32) (x6 : Vec Ideal S1x8 .f32) (x7 : Vec Ideal S8x8 .f32) (x8 : Vec Ideal S1x8 .f32) (x9 : Vec Ideal S8x8 .f32) (x10 : Vec Ideal S1x8 .f32) (x11 : Vec Ideal S8x8 .f32) (x12 : Vec Ideal S1x8 .f32) (x13 : Vec Ideal S8x8 .f32) (x14 : Vec Ideal S1x8 .f32) (x15 : Vec Ideal S8x8 .f32) (x16 : Vec Ideal S1x8 .f32) (x17 : Vec Ideal S8x8 .f32) (x18 : Vec Ideal S1x8 .f32) (x19 : Vec Ideal S8x5 .f32) (x20 : Vec Ideal S1x5 .f32) (x21 : Vec Ideal S5x3 .f32) (x22 : Vec Ideal S1x3 .f32) (x23 : Vec Ideal S3x1 .f32) (x24 : Vec Ideal S1x1 .f32) (p : Fin 4096) :
    row (k0_pay1 (F := Ideal) (k0_pay6 (k0_pay4 (k0_pay2 x0 x1 x2 x3 x4) (k0_pay3 x0 x1 x2 x3 x4 x5 x6 x7) x8 x9 x10 x11 x12 x13 x14) (k0_pay5 (k0_pay2 x0 x1 x2 x3 x4) (k0_pay3 x0 x1 x2 x3 x4 x5 x6 x7) x8 x9 x10 x11 x12 x13 x14 x15) x16 x17 x18 x19 x20 x21 x22 x23) x24) p
      = net (blockParams x1 x2 x3 x4 x5 x6 x7 x8 x9 x10 x11 x12 x13 x14 x15 x16 x17 x18 x19 x20 x21 x22 x23 x24) (row x0 p) := by
  rw [pay1_row, pay6_row, pay5_row, pay4_row, pay3_row, pay2_row]
  rfl

/-- The same at an index of the stored block: at `y` it is the network on row `y 0` of the input block, read at `y 1`. -/
theorem stored_apply (x0 : Vec Ideal S4096x8 .f32) (x1 : Vec Ideal S8x8 .f32) (x2 : Vec Ideal S1x8 .f32) (x3 : Vec Ideal S8x8 .f32) (x4 : Vec Ideal S1x8 .f32) (x5 : Vec Ideal S8x8 .f32) (x6 : Vec Ideal S1x8 .f32) (x7 : Vec Ideal S8x8 .f32) (x8 : Vec Ideal S1x8 .f32) (x9 : Vec Ideal S8x8 .f32) (x10 : Vec Ideal S1x8 .f32) (x11 : Vec Ideal S8x8 .f32) (x12 : Vec Ideal S1x8 .f32) (x13 : Vec Ideal S8x8 .f32) (x14 : Vec Ideal S1x8 .f32) (x15 : Vec Ideal S8x8 .f32) (x16 : Vec Ideal S1x8 .f32) (x17 : Vec Ideal S8x8 .f32) (x18 : Vec Ideal S1x8 .f32) (x19 : Vec Ideal S8x5 .f32) (x20 : Vec Ideal S1x5 .f32) (x21 : Vec Ideal S5x3 .f32) (x22 : Vec Ideal S1x3 .f32) (x23 : Vec Ideal S3x1 .f32) (x24 : Vec Ideal S1x1 .f32) (y : S4096x1.Idx) :
    (k0_pay1 (F := Ideal) (k0_pay6 (k0_pay4 (k0_pay2 x0 x1 x2 x3 x4) (k0_pay3 x0 x1 x2 x3 x4 x5 x6 x7) x8 x9 x10 x11 x12 x13 x14) (k0_pay5 (k0_pay2 x0 x1 x2 x3 x4) (k0_pay3 x0 x1 x2 x3 x4 x5 x6 x7) x8 x9 x10 x11 x12 x13 x14 x15) x16 x17 x18 x19 x20 x21 x22 x23) x24) y
      = net (blockParams x1 x2 x3 x4 x5 x6 x7 x8 x9 x10 x11 x12 x13 x14 x15 x16 x17 x18 x19 x20 x21 x22 x23 x24) (row x0 (y 0)) (y 1) := by
  obtain ⟨p, q, rfl⟩ : ∃ (p : Fin 4096) (q : Fin 1), y = ix2 p q := ⟨y 0, y 1, eq_ix2 y⟩
  exact congrFun (stored_row x0 x1 x2 x3 x4 x5 x6 x7 x8 x9 x10 x11 x12 x13 x14 x15 x16 x17 x18 x19 x20 x21 x22 x23 x24 p) q

end Cert.KernelIdeal.Rows

end
-- ==== Proof.KernelArray.lean ====
/-
  From blocks to the array.

  The grid has 1024 points; point `t` loads rows `4096·t … 4096·t + 4095` of the input, the twelve weights and
  twelve biases whole (their blocks do not move with `t`), and writes back rows `4096·t … 4096·t + 4095` of the
  result. The weights reach the kernel transposed and the biases reshaped to rows by the host operations before
  the launch; read back through the layers' row functions they are the weights as launched. So what point `t`
  writes back is block `t` of ONE function of the argument arrays, the network applied to every row, and the
  1024 blocks cover the result array.
-/
import proofs.«161150_j17222818857346_1_alg».proof.Proof.ValuePatched
import proofs.«161150_j17222818857346_1_alg».proof.Proof.KernelRows
import Idealize.ShloMosaic.Lib.StableHlo.Run

set_option maxRecDepth 16384

noncomputable section

namespace Cert.KernelIdeal.Arr

open Cert.KernelIdeal Cert.KernelIdeal.Gen Idealize.ShloMosaic Idealize.ShloMosaic.TcCoe Idealize.SL.Sem
open Idealize.ShloMosaic.Pipeline (Dat)
open Idealize.ShloMosaic.ValueIdx Cert.Rows Cert.Mlp Cert.KernelIdeal.Rows

variable (m : (ℓ : Loc nD τ sig) → Buf (Elt Ideal) ℓ) (ρ : Dev nD → PrngReg)

/-- The layers' weights as launched. -/
def params (c : Dev nD) : Params :=
  ⟨wOf (m ((c : Thread nD τ).loc main_arg1)), bOf (m ((c : Thread nD τ).loc main_arg2)),
   wOf (m ((c : Thread nD τ).loc main_arg3)), bOf (m ((c : Thread nD τ).loc main_arg4)),
   wOf (m ((c : Thread nD τ).loc main_arg5)), bOf (m ((c : Thread nD τ).loc main_arg6)),
   wOf (m ((c : Thread nD τ).loc main_arg7)), bOf (m ((c : Thread nD τ).loc main_arg8)),
   wOf (m ((c : Thread nD τ).loc main_arg9)), bOf (m ((c : Thread nD τ).loc main_arg10)),
   wOf (m ((c : Thread nD τ).loc main_arg11)), bOf (m ((c : Thread nD τ).loc main_arg12)),
   wOf (m ((c : Thread nD τ).loc main_arg13)), bOf (m ((c : Thread nD τ).loc main_arg14)),
   wOf (m ((c : Thread nD τ).loc main_arg15)), bOf (m ((c : Thread nD τ).loc main_arg16)),
   wOf (m ((c : Thread nD τ).loc main_arg17)), bOf (m ((c : Thread nD τ).loc main_arg18)),
   wOf (m ((c : Thread nD τ).loc main_arg19)), bOf (m ((c : Thread nD τ).loc main_arg20)),
   wOf (m ((c : Thread nD τ).loc main_arg21)), bOf (m ((c : Thread nD τ).loc main_arg22)),
   wOf (m ((c : Thread nD τ).loc main_arg23)), bOf (m ((c : Thread nD τ).loc main_arg24))⟩

/-! ## The weights' and biases' windows

Each of these windows has block index `(0, 0)` at every point and a block as large as its array, so an element of
the block sits in the array at its own coordinates. -/

set_option hygiene false in
/-- `iblk m c w t = V m c v` for a window `w` of array `v` whose block index is zero on both axes: an element of the
    block sits in the array at its own coordinates. -/
local macro "block_eq " w:ident v:ident : tactic =>
  `(tactic| (
    funext y
    show V m c $v ((($w).rect t).emb y) = V m c $v y
    exact congrArg _ (funext fun a => Fin.ext (($w).rect_emb_val_of_index_zero t a
      (match a with | ⟨0, _⟩ => rfl | ⟨1, _⟩ => rfl) y))))

/-- What a host operation before the launch left in its result array, read off the operations' list. -/
local macro "host_value" : tactic => `(tactic| (dsimp only [V, hostOps0]; after_results <;> rfl))

/-- Layer 1's weight: window 1 stages its transpose. -/
theorem W1_blk (c : Dev nD) (t : Fin cfg0.N) : wOfT (iblk m c 1 t) = wOf (m ((c : Thread nD τ).loc main_arg1)) := by
  rw [show iblk m c 1 t = V m c main_v0 by block_eq win0_1 main_v0,
    show V m c main_v0 = transpose S8x8 [1, 0] (m ((c : Thread nD τ).loc main_arg1)) transposes_S8x8_S8x8_1_0 by host_value,
    wOfT_transpose]

/-- Layer 1's bias: window 2 stages it as a row. -/
theorem b1_blk (c : Dev nD) (t : Fin cfg0.N) : row (iblk m c 2 t) 0 = bOf (m ((c : Thread nD τ).loc main_arg2)) := by
  rw [show iblk m c 2 t = V m c main_v12 by block_eq win0_2 main_v12,
    show V m c main_v12 = shapeCast S1x8 (m ((c : Thread nD τ).loc main_arg2)) shapeCasts_S8_S1x8 by host_value,
    row_reshape]

/-- Layer 2's weight: window 3 stages its transpose. -/
theorem W2_blk (c : Dev nD) (t : Fin cfg0.N) : wOfT (iblk m c 3 t) = wOf (m ((c : Thread nD τ).loc main_arg3)) := by
  rw [show iblk m c 3 t = V m c main_v1 by block_eq win0_3 main_v1,
    show V m c main_v1 = transpose S8x8 [1, 0] (m ((c : Thread nD τ).loc main_arg3)) transposes_S8x8_S8x8_1_0 by host_value,
    wOfT_transpose]

/-- Layer 2's bias: window 4 stages it as a row. -/
theorem b2_blk (c : Dev nD) (t : Fin cfg0.N) : row (iblk m c 4 t) 0 = bOf (m ((c : Thread nD τ).loc main_arg4)) := by
  rw [show iblk m c 4 t = V m c main_v13 by block_eq win0_4 main_v13,
    show V m c main_v13 = shapeCast S1x8 (m ((c : Thread nD τ).loc main_arg4)) shapeCasts_S8_S1x8 by host_value,
    row_reshape]

/-- Layer 3's weight: window 5 stages its transpose. -/
theorem W3_blk (c : Dev nD) (t : Fin cfg0.N) : wOfT (iblk m c 5 t) = wOf (m ((c : Thread nD τ).loc main_arg5)) := by
  rw [show iblk m c 5 t = V m c main_v2 by block_eq win0_5 main_v2,
    show V m c main_v2 = transpose S8x8 [1, 0] (m ((c : Thread nD τ).loc main_arg5)) transposes_S8x8_S8x8_1_0 by host_value,
    wOfT_transpose]

/-- Layer 3's bias: window 6 stages it as a row. -/
theorem b3_blk (c : Dev nD) (t : Fin cfg0.N) : row (iblk m c 6 t) 0 = bOf (m ((c : Thread nD τ).loc main_arg6)) := by
  rw [show iblk m c 6 t = V m c main_v14 by block_eq win0_6 main_v14,
    show V m c main_v14 = shapeCast S1x8 (m ((c : Thread nD τ).loc main_arg6)) shapeCasts_S8_S1x8 by host_value,
    row_reshape]

/-- Layer 4's weight: window 7 stages its transpose. -/
theorem W4_blk (c : Dev nD) (t : Fin cfg0.N) : wOfT (iblk m c 7 t) = wOf (m ((c : Thread nD τ).loc main_arg7)) := by
  rw [show iblk m c 7 t = V m c main_v3 by block_eq win0_7 main_v3,
    show V m c main_v3 = transpose S8x8 [1, 0] (m ((c : Thread nD τ).loc main_arg7)) transposes_S8x8_S8x8_1_0 by host_value,
    wOfT_transpose]

/-- Layer 4's bias: window 8 stages it as a row. -/
theorem b4_blk (c : Dev nD) (t : Fin cfg0.N) : row (iblk m c 8 t) 0 = bOf (m ((c : Thread nD τ).loc main_arg8)) := by
  rw [show iblk m c 8 t = V m c main_v15 by block_eq win0_8 main_v15,
    show V m c main_v15 = shapeCast S1x8 (m ((c : Thread nD τ).loc main_arg8)) shapeCasts_S8_S1x8 by host_value,
    row_reshape]

/-- Layer 5's weight: window 9 stages its transpose. -/
theorem W5_blk (c : Dev nD) (t : Fin cfg0.N) : wOfT (iblk m c 9 t) = wOf (m ((c : Thread nD τ).loc main_arg9)) := by
  rw [show iblk m c 9 t = V m c main_v4 by block_eq win0_9 main_v4,
    show V m c main_v4 = transpose S8x8 [1, 0] (m ((c : Thread nD τ).loc main_arg9)) transposes_S8x8_S8x8_1_0 by host_value,
    wOfT_transpose]

/-- Layer 5's bias: window 10 stages it as a row. -/
theorem b5_blk (c : Dev nD) (t : Fin cfg0.N) : row (iblk m c 10 t) 0 = bOf (m ((c : Thread nD τ).loc main_arg10)) := by
  rw [show iblk m c 10 t = V m c main_v16 by block_eq win0_10 main_v16,
    show V m c main_v16 = shapeCast S1x8 (m ((c : Thread nD τ).loc main_arg10)) shapeCasts_S8_S1x8 by host_value,
    row_reshape]

/-- Layer 6's weight: window 11 stages its transpose. -/
theorem W6_blk (c : Dev nD) (t : Fin cfg0.N) : wOfT (iblk m c 11 t) = wOf (m ((c : Thread nD τ).loc main_arg11)) := by
  rw [show iblk m c 11 t = V m c main_v5 by block_eq win0_11 main_v5,
    show V m c main_v5 = transpose S8x8 [1, 0] (m ((c : Thread nD τ).loc main_arg11)) transposes_S8x8_S8x8_1_0 by host_value,
    wOfT_transpose]

/-- Layer 6's bias: window 12 stages it as a row. -/
theorem b6_blk (c : Dev nD) (t : Fin cfg0.N) : row (iblk m c 12 t) 0 = bOf (m ((c : Thread nD τ).loc main_arg12)) := by
  rw [show iblk m c 12 t = V m c main_v17 by block_eq win0_12 main_v17,
    show V m c main_v17 = shapeCast S1x8 (m ((c : Thread nD τ).loc main_arg12)) shapeCasts_S8_S1x8 by host_value,
    row_reshape]

/-- Layer 7's weight: window 13 stages its transpose. -/
theorem W7_blk (c : Dev nD) (t : Fin cfg0.N) : wOfT (iblk m c 13 t) = wOf (m ((c : Thread nD τ).loc main_arg13)) := by
  rw [show iblk m c 13 t = V m c main_v6 by block_eq win0_13 main_v6,
    show V m c main_v6 = transpose S8x8 [1, 0] (m ((c : Thread nD τ).loc main_arg13)) transposes_S8x8_S8x8_1_0 by host_value,
    wOfT_transpose]

/-- Layer 7's bias: window 14 stages it as a row. -/
theorem b7_blk (c : Dev nD) (t : Fin cfg0.N) : row (iblk m c 14 t) 0 = bOf (m ((c : Thread nD τ).loc main_arg14)) := by
  rw [show iblk m c 14 t = V m c main_v18 by block_eq win0_14 main_v18,
    show V m c main_v18 = shapeCast S1x8 (m ((c : Thread nD τ).loc main_arg14)) shapeCasts_S8_S1x8 by host_value,
    row_reshape]

/-- Layer 8's weight: window 15 stages its transpose. -/
theorem W8_blk (c : Dev nD) (t : Fin cfg0.N) : wOfT (iblk m c 15 t) = wOf (m ((c : Thread nD τ).loc main_arg15)) := by
  rw [show iblk m c 15 t = V m c main_v7 by block_eq win0_15 main_v7,
    show V m c main_v7 = transpose S8x8 [1, 0] (m ((c : Thread nD τ).loc main_arg15)) transposes_S8x8_S8x8_1_0 by host_value,
    wOfT_transpose]

/-- Layer 8's bias: window 16 stages it as a row. -/
theorem b8_blk (c : Dev nD) (t : Fin cfg0.N) : row (iblk m c 16 t) 0 = bOf (m ((c : Thread nD τ).loc main_arg16)) := by
  rw [show iblk m c 16 t = V m c main_v19 by block_eq win0_16 main_v19,
    show V m c main_v19 = shapeCast S1x8 (m ((c : Thread nD τ).loc main_arg16)) shapeCasts_S8_S1x8 by host_value,
    row_reshape]

/-- Layer 9's weight: window 17 stages its transpose. -/
theorem W9_blk (c : Dev nD) (t : Fin cfg0.N) : wOfT (iblk m c 17 t) = wOf (m ((c : Thread nD τ).loc main_arg17)) := by
  rw [show iblk m c 17 t = V m c main_v8 by block_eq win0_17 main_v8,
    show V m c main_v8 = transpose S8x8 [1, 0] (m ((c : Thread nD τ).loc main_arg17)) transposes_S8x8_S8x8_1_0 by host_value,
    wOfT_transpose]

/-- Layer 9's bias: window 18 stages it as a row. -/
theorem b9_blk (c : Dev nD) (t : Fin cfg0.N) : row (iblk m c 18 t) 0 = bOf (m ((c : Thread nD τ).loc main_arg18)) := by
  rw [show iblk m c 18 t = V m c main_v20 by block_eq win0_18 main_v20,
    show V m c main_v20 = shapeCast S1x8 (m ((c : Thread nD τ).loc main_arg18)) shapeCasts_S8_S1x8 by host_value,
    row_reshape]

/-- Layer 10's weight: window 19 stages its transpose. -/
theorem W10_blk (c : Dev nD) (t : Fin cfg0.N) : wOfT (iblk m c 19 t) = wOf (m ((c : Thread nD τ).loc main_arg19)) := by
  rw [show iblk m c 19 t = V m c main_v9 by block_eq win0_19 main_v9,
    show V m c main_v9 = transpose S8x5 [1, 0] (m ((c : Thread nD τ).loc main_arg19)) transposes_S5x8_S8x5_1_0 by host_value,
    wOfT_transpose]

/-- Layer 10's bias: window 20 stages it as a row. -/
theorem b10_blk (c : Dev nD) (t : Fin cfg0.N) : row (iblk m c 20 t) 0 = bOf (m ((c : Thread nD τ).loc main_arg20)) := by
  rw [show iblk m c 20 t = V m c main_v21 by block_eq win0_20 main_v21,
    show V m c main_v21 = shapeCast S1x5 (m ((c : Thread nD τ).loc main_arg20)) shapeCasts_S5_S1x5 by host_value,
    row_reshape]

/-- Layer 11's weight: window 21 stages its transpose. -/
theorem W11_blk (c : Dev nD) (t : Fin cfg0.N) : wOfT (iblk m c 21 t) = wOf (m ((c : Thread nD τ).loc main_arg21)) := by
  rw [show iblk m c 21 t = V m c main_v10 by block_eq win0_21 main_v10,
    show V m c main_v10 = transpose S5x3 [1, 0] (m ((c : Thread nD τ).loc main_arg21)) transposes_S3x5_S5x3_1_0 by host_value,
    wOfT_transpose]

/-- Layer 11's bias: window 22 stages it as a row. -/
theorem b11_blk (c : Dev nD) (t : Fin cfg0.N) : row (iblk m c 22 t) 0 = bOf (m ((c : Thread nD τ).loc main_arg22)) := by
  rw [show iblk m c 22 t = V m c main_v22 by block_eq win0_22 main_v22,
    show V m c main_v22 = shapeCast S1x3 (m ((c : Thread nD τ).loc main_arg22)) shapeCasts_S3_S1x3 by host_value,
    row_reshape]

/-- Layer 12's weight: window 23 stages its transpose. -/
theorem W12_blk (c : Dev nD) (t : Fin cfg0.N) : wOfT (iblk m c 23 t) = wOf (m ((c : Thread nD τ).loc main_arg23)) := by
  rw [show iblk m c 23 t = V m c main_v11 by block_eq win0_23 main_v11,
    show V m c main_v11 = transpose S3x1 [1, 0] (m ((c : Thread nD τ).loc main_arg23)) transposes_S1x3_S3x1_1_0 by host_value,
    wOfT_transpose]

/-- Layer 12's bias: window 24 stages it as a row. -/
theorem b12_blk (c : Dev nD) (t : Fin cfg0.N) : row (iblk m c 24 t) 0 = bOf (m ((c : Thread nD τ).loc main_arg24)) := by
  rw [show iblk m c 24 t = V m c main_v23 by block_eq win0_24 main_v23,
    show V m c main_v23 = shapeCast S1x1 (m ((c : Thread nD τ).loc main_arg24)) shapeCasts_S1_S1x1 by host_value,
    row_reshape]

/-- So the weights the body finds in its blocks are the weights as launched, at every point. -/
theorem blockParams_eq (c : Dev nD) (t : Fin cfg0.N) :
    blockParams (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) = params m c := by
  unfold blockParams params
  rw [W1_blk m c t, b1_blk m c t, W2_blk m c t, b2_blk m c t, W3_blk m c t, b3_blk m c t, W4_blk m c t, b4_blk m c t, W5_blk m c t, b5_blk m c t, W6_blk m c t, b6_blk m c t, W7_blk m c t, b7_blk m c t, W8_blk m c t, b8_blk m c t, W9_blk m c t, b9_blk m c t, W10_blk m c t, b10_blk m c t, W11_blk m c t, b11_blk m c t, W12_blk m c t, b12_blk m c t]

/-! ## The input's and the result's windows -/

/-- The input's block index on the row axis is the point's position (decided over the 1024 points). -/
theorem idx_in : ∀ t : Fin cfg0.N, win0_0.index t (0 : Fin 2) = t.val :=
  (by decide +kernel : ∀ t : Fin grid0.N, win0_0.index t (0 : Fin 2) = t.val)

/-- So is the result's. -/
theorem idx_out (t : Fin cfg0.N) : win0_25.index t (0 : Fin 2) = t.val := ValueP.idx_pt25 t

/-- Row `y 0` of the input block at point `t` is the row of the input array that `y` has in the result array. -/
theorem in_row (c : Dev nD) (t : Fin cfg0.N) (y : S4096x1.Idx) :
    row (iblk m c 0 t) (y 0) = row (m ((c : Thread nD τ).loc main_arg0)) ((win0_25.rect t).emb y 0) := by
  funext k
  show V m c main_arg0 ((win0_0.rect t).emb (ix2 (y 0) k)) = (m ((c : Thread nD τ).loc main_arg0)) (ix2 ((win0_25.rect t).emb y 0) k)
  rw [V_main_arg0]
  refine congrArg _ (funext fun a => Fin.ext ?_)
  match a with
  | ⟨0, _⟩ =>
    have h0 : ((win0_0.rect t).emb (ix2 (y 0) k) 0 : Nat) = win0_0.index t (0 : Fin 2) * 4096 + (y 0).val :=
      win0_0.rect_emb_val t (ix2 (y 0) k) 0
    have h25 : ((win0_25.rect t).emb y 0 : Nat) = win0_25.index t (0 : Fin 2) * 4096 + (y 0).val :=
      win0_25.rect_emb_val t y 0
    have e0 := idx_in t
    have e25 := idx_out t
    show ((win0_0.rect t).emb (ix2 (y 0) k) 0 : Nat) = ((win0_25.rect t).emb y 0 : Nat)
    omega
  | ⟨1, _⟩ => exact win0_0.rect_emb_val_of_index_zero t 1 rfl (ix2 (y 0) k)

theorem hz : (![0, 0] : Fin 2 → Nat) = fun _ => 0 := funext fun a => by fin_cases a <;> rfl

/-- WHAT POINT `t` WRITES BACK is block `t` of the network applied to every row of the input. -/
theorem flushed_eq (c : Dev nD) (t : Fin cfg0.N) :
    (dats m 0 c).flushed 25 t = ((cfg0.win 25).blk t).view.read (Elt Ideal) (G (params m c) (m ((c : Thread nD τ).loc main_arg0))) := by
  rw [ValueP.flushed25]
  unfold out0_25
  rw [View.canon_unit_zero hz]
  simp only [View.ld_unit_zero (S := S4096x8) hz, View.ld_unit_zero (S := S8x8) hz, View.ld_unit_zero (S := S1x8) hz,
    View.ld_unit_zero (S := S8x5) hz, View.ld_unit_zero (S := S1x5) hz, View.ld_unit_zero (S := S5x3) hz,
    View.ld_unit_zero (S := S1x3) hz, View.ld_unit_zero (S := S3x1) hz, View.ld_unit_zero (S := S1x1) hz]
  funext y
  refine (stored_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _).trans ?_
  rw [blockParams_eq m c t]
  show net (params m c) (row (iblk m c 0 t) (y 0)) (y 1)
    = net (params m c) (row (m ((c : Thread nD τ).loc main_arg0)) ((win0_25.rect t).emb y 0)) ((win0_25.rect t).emb y 1)
  rw [in_row m c t y]
  refine congrArg _ (Fin.ext ?_)
  have h1 : ((win0_25.rect t).emb y 1 : Nat) < 1 := ((win0_25.rect t).emb y 1).isLt
  have h2 : (y 1 : Nat) < 1 := (y 1).isLt
  omega

/-! ## The cover -/

/-- An index of the result array is in point `t`'s block iff each coordinate is in the block's range on its axis. -/
theorem mem_blk (t : Fin cfg0.N) (i : S4194304x1.Idx) :
    i ∈ ((cfg0.win 25).blk t).view.set ↔ ∀ a : Fin 2, win0_25.index t a * S4096x1.size a ≤ (i a).val ∧ (i a).val < win0_25.index t a * S4096x1.size a + S4096x1.size a := by
  show i ∈ ((View.whole main_v24).slice (win0_25.rect t)).set ↔ _
  rw [View.set_slice_whole, Rect.mem_set_unit]
  exact Iff.rfl

/-- Row `r` of the result is in the block of point `r / 4096`. -/
theorem cover (i : S4194304x1.Idx) :
    ∃ t : Fin cfg0.N, (cfg0.win 25).flush t = true ∧ i ∈ ((cfg0.win 25).blk t).view.set := by
  have hi0 : (i 0).val < 4194304 := (i 0).isLt
  have hi1 : (i 1).val < 1 := (i 1).isLt
  have hN : (i 0).val / 4096 < cfg0.N := by rw [show cfg0.N = 1024 from N_0]; omega
  refine ⟨⟨(i 0).val / 4096, hN⟩, flush0_25 _, ?_⟩
  rw [mem_blk]
  intro a
  match a with
  | ⟨0, _⟩ =>
    have e := idx_out ⟨(i 0).val / 4096, hN⟩
    show win0_25.index ⟨(i 0).val / 4096, hN⟩ (0 : Fin 2) * 4096 ≤ (i 0).val ∧ (i 0).val < win0_25.index ⟨(i 0).val / 4096, hN⟩ (0 : Fin 2) * 4096 + 4096
    rw [e]
    show (i 0).val / 4096 * 4096 ≤ (i 0).val ∧ (i 0).val < (i 0).val / 4096 * 4096 + 4096
    omega
  | ⟨1, _⟩ =>
    show 0 * 1 ≤ (i 1).val ∧ (i 1).val < 0 * 1 + 1
    omega

/-! ## The array, and the run -/

/-- THE RESULT ARRAY after the run is the network applied to every row of the input, at the weights as launched. -/
theorem final (c : Dev nD) : (dats m 0 c).arrAt 25 cfg0.N = G (params m c) (m ((c : Thread nD τ).loc main_arg0)) :=
  (dats m 0 c).arrAt_eq_of_cover 25 (G (params m c) (m ((c : Thread nD τ).loc main_arg0))) (fun t _ => flushed_eq m c t) (fun i => cover i)

/-- The kernel's run re-posted: the result array at that function, the arguments unchanged. -/
theorem run : θ_run defs (onTc (τ := τ) (main (F := Ideal))) ⟨m, fun _ => 0, ρ⟩ fun r => ∀ c : Dev nD,
      r.2.mem ((c : Thread nD τ).loc main_v24) = G (params m c) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24) :=
  (θ_run defs _ _).mono (fun r h c => ⟨(h c).1.trans (final m c), (h c).2⟩) (ValueP.run_blocks m ρ)

end Cert.KernelIdeal.Arr

end
-- ==== Proof.RefRows.lean ====
/-
  The reference, one row at a time.

  The reference's result is one composed term of the argument arrays: per layer the weight `[out, in]` transposed,
  the product with the activations, the bias broadcast down the rows and added, `tanh`; the fifth, seventh and
  ninth layers add an earlier activation before their `tanh`. Reading every operation row by row, row `r` of the
  result is the network on row `r` of the input, at the weights as launched.
-/
import proofs.«161150_j17222818857346_1_alg».proof.Proof.Gen.ReferenceIdeal.Run
import proofs.«161150_j17222818857346_1_alg».proof.Proof.Spec

noncomputable section

namespace Cert.ReferenceIdeal.Rows

open Cert.ReferenceIdeal Cert.ReferenceIdeal.Gen Idealize.ShloMosaic Idealize.ShloMosaic.TcCoe Idealize.SL.Sem
open Idealize.ShloMosaic.ValueIdx Cert.Rows Cert.PlainDot Cert.Mlp

/-! ## The four products of the reference are plain matrix products -/

theorem plain_8_8 : IsPlain dot_S4194304x8_S8x8_S4194304x8_1_0_0_1_n_n := ⟨rfl, rfl, rfl, rfl, rfl, rfl⟩
theorem plain_8_5 : IsPlain dot_S4194304x8_S8x5_S4194304x5_1_0_0_1_n_n := ⟨rfl, rfl, rfl, rfl, rfl, rfl⟩
theorem plain_5_3 : IsPlain dot_S4194304x5_S5x3_S4194304x3_1_0_0_1_n_n := ⟨rfl, rfl, rfl, rfl, rfl, rfl⟩
theorem plain_3_1 : IsPlain dot_S4194304x3_S3x1_S4194304x1_1_0_0_1_n_n := ⟨rfl, rfl, rfl, rfl, rfl, rfl⟩

variable (m : (ℓ : Loc nD τ sig) → Buf (Elt Ideal) ℓ)

/-- The layers' weights as launched. -/
def params (c : Dev nD) : Params :=
  ⟨wOf (m ((c.tc : Thread nD τ).loc main_arg1)), bOf (m ((c.tc : Thread nD τ).loc main_arg2)), wOf (m ((c.tc : Thread nD τ).loc main_arg3)), bOf (m ((c.tc : Thread nD τ).loc main_arg4)),
   wOf (m ((c.tc : Thread nD τ).loc main_arg5)), bOf (m ((c.tc : Thread nD τ).loc main_arg6)), wOf (m ((c.tc : Thread nD τ).loc main_arg7)), bOf (m ((c.tc : Thread nD τ).loc main_arg8)),
   wOf (m ((c.tc : Thread nD τ).loc main_arg9)), bOf (m ((c.tc : Thread nD τ).loc main_arg10)), wOf (m ((c.tc : Thread nD τ).loc main_arg11)), bOf (m ((c.tc : Thread nD τ).loc main_arg12)),
   wOf (m ((c.tc : Thread nD τ).loc main_arg13)), bOf (m ((c.tc : Thread nD τ).loc main_arg14)), wOf (m ((c.tc : Thread nD τ).loc main_arg15)), bOf (m ((c.tc : Thread nD τ).loc main_arg16)),
   wOf (m ((c.tc : Thread nD τ).loc main_arg17)), bOf (m ((c.tc : Thread nD τ).loc main_arg18)), wOf (m ((c.tc : Thread nD τ).loc main_arg19)), bOf (m ((c.tc : Thread nD τ).loc main_arg20)),
   wOf (m ((c.tc : Thread nD τ).loc main_arg21)), bOf (m ((c.tc : Thread nD τ).loc main_arg22)), wOf (m ((c.tc : Thread nD τ).loc main_arg23)), bOf (m ((c.tc : Thread nD τ).loc main_arg24))⟩

/-- Row `r` of the reference's result is the network on row `r` of the input. -/
theorem result_row (c : Dev nD) (r : Fin 4194304) :
    row (Value.res_main_v73 (F := Ideal) m c) r = net (params m c) (row (m ((c.tc : Thread nD τ).loc main_arg0)) r) := by
  unfold Value.res_main_v73
  simp only [net, lin, params, row_addf, row_hostTanh, row_dotGeneral plain_8_8, row_dotGeneral plain_8_5,
    row_dotGeneral plain_5_3, row_dotGeneral plain_3_1]
  repeat rw [row_broadcastInDim]

/-- The reference's result is the network applied to every row. -/
theorem result_eq (c : Dev nD) : Value.res_main_v73 (F := Ideal) m c = G (params m c) (m ((c.tc : Thread nD τ).loc main_arg0)) := by
  funext i
  obtain ⟨r, q, rfl⟩ : ∃ (r : Fin 4194304) (q : Fin 1), i = ix2 r q := ⟨i 0, i 1, eq_ix2 i⟩
  exact congrFun (result_row m c r) q

end Cert.ReferenceIdeal.Rows

end
-- ==== Proof.lean ====
/-
  The certificate of a twelve-layer perceptron on 4,194,304 rows of 8 features.

  The kernel walks the rows in 1024 blocks of 4096. On each block it applies twelve dense layers
  `y = x · Wᵀ + b`, the first eleven followed by `tanh`, the fifth, seventh and ninth adding the second, fifth and
  seventh activations before their `tanh`; it multiplies in bf16 with an f32 accumulator, on weights transposed and
  biases reshaped to rows by the host before the launch. The reference does the same layers on the whole array in
  f32, transposing each weight and broadcasting each bias on the spot.

  At the ideal values narrowing a float to bf16 is the identity, a product into a zero accumulator is the plain
  sum of products, and both programs' `tanh` is the same function of the extended reals. No layer mixes rows,
  so each program's result at row `r` is ONE function of row `r` of the input and the weights: the network of
  Proof/Spec.lean. The kernel's side reads its stored block row by row (Proof/KernelRows.lean) and lays the 1024
  blocks over the result array (Proof/KernelArray.lean); the reference's side reads its composed term row by row
  (Proof/RefRows.lean). No law of arithmetic beyond this re-reading is used, so finiteness of the inputs is not.

  The three frames are the generated ones (the reference's is its generated run with the value dropped), and
  the idealization changed no operation, so `preserves` has nothing to state.
-/
import proofs.«161150_j17222818857346_1_alg».proof.Defs
import proofs.«161150_j17222818857346_1_alg».proof.Proof.Gen.Kernel
import proofs.«161150_j17222818857346_1_alg».proof.Proof.Gen.Kernel.Skeleton
import proofs.«161150_j17222818857346_1_alg».proof.Proof.Gen.Kernel.Launch
import proofs.«161150_j17222818857346_1_alg».proof.Proof.Gen.Kernel.Points
import proofs.«161150_j17222818857346_1_alg».proof.Proof.Gen.Kernel.Frame
import proofs.«161150_j17222818857346_1_alg».proof.Proof.Gen.KernelIdeal
import proofs.«161150_j17222818857346_1_alg».proof.Proof.Gen.KernelIdeal.Skeleton
import proofs.«161150_j17222818857346_1_alg».proof.Proof.Gen.KernelIdeal.Launch
import proofs.«161150_j17222818857346_1_alg».proof.Proof.Gen.KernelIdeal.Points
import proofs.«161150_j17222818857346_1_alg».proof.Proof.Gen.KernelIdeal.Frame
import proofs.«161150_j17222818857346_1_alg».proof.Proof.Gen.ReferenceIdeal
import proofs.«161150_j17222818857346_1_alg».proof.Proof.Gen.Pre_finite_inputs
import proofs.«161150_j17222818857346_1_alg».proof.Proof.Gen.ReferenceIdeal.Run
import proofs.«161150_j17222818857346_1_alg».proof.Proof.KernelArray
import proofs.«161150_j17222818857346_1_alg».proof.Proof.RefRows
import Idealize.ShloMosaic.Adequacy
import Idealize.ShloMosaic.Init

noncomputable section

namespace Cert.Proof

open Idealize.ShloMosaic Idealize.ShloMosaic.TcCoe Idealize.SL.Sem Cert.Mlp

/-- The word-level kernel terminates, faults nowhere and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the value of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

set_option maxHeartbeats 2000000 in  -- twenty-five rewrites, one per argument array, each under the whole network's term
/-- From memories that agree on the arguments both programs end with the network applied to every row of the input, at
    the weights as launched: the kernel's result array block by block, the reference's as one composed term. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Rows.result_eq m' c).trans ?_
  obtain ⟨h0, h1, h2, h3, h4, h5, h6, h7, h8, h9, h10, h11, h12, h13, h14, h15, h16, h17, h18, h19, h20, h21, h22, h23, h24⟩ := hagree c
  unfold Cert.ReferenceIdeal.Rows.params Cert.KernelIdeal.Arr.params
  rw [h0, h1, h2, h3, h4, h5, h6, h7, h8, h9, h10, h11, h12, h13, h14, h15, h16, h17, h18, h19, h20, h21, h22, h23, h24]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
